-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S256x256 : Shape := ⟨2, ![256, 256]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S16x2048x256 .f32) (main_arg1 : FVec F S16x2048x256 .f32) (main_arg2 : FVec F S256x256 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S16x2048x256 .f32 := Host.absf main_arg1
  let main_cst_0 : FVec F S_ .f32 := constant S_ .f32 0x7F800000#32
  let main_v5 : FVec F S16x2048x256 .f32 := broadcastInDim S16x2048x256 ![] bcast_S_S16x2048x256 main_cst_0
  let main_v6 : IVec S16x2048x256 1 := cmpf .olt main_v4 main_v5
  let main_c_1 : IVec S_ 1 := constantI S_ 1 1#1
  let main_v7 : IVec S_ 1 := (fun x v => Host.reduce IntOp.andi x v reducesTo_S16x2048x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S16x2048x256 : Shape := ⟨3, ![16, 2048, 256]⟩
abbrev S256x256 : Shape := ⟨2, ![256, 256]⟩
abbrev S32768x256 : Shape := ⟨2, ![32768, 256]⟩
abbrev S1x2048x256 : Shape := ⟨3, ![1, 2048, 256]⟩
abbrev S1x1024x256 : Shape := ⟨3, ![1, 1024, 256]⟩
abbrev S2048x1 : Shape := ⟨2, ![2048, 1]⟩
abbrev S2048x256 : Shape := ⟨2, ![2048, 256]⟩
abbrev S1024x256 : Shape := ⟨2, ![1024, 256]⟩
abbrev S256x1024 : Shape := ⟨2, ![256, 1024]⟩
abbrev S2048x1024 : Shape := ⟨2, ![2048, 1024]⟩
abbrev S2048 : Shape := ⟨1, ![2048]⟩

abbrev nBuf : Space → Nat
  | .hbm => 28
  | .vmem => 13
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S256x256, .f32⟩
  | .hbm, ⟨3, _⟩ => ⟨S16x2048x256, .bf16⟩
  | .hbm, ⟨4, _⟩ => ⟨S16x2048x256, .f32⟩
  | .hbm, ⟨5, _⟩ => ⟨S16x2048x256, .f32⟩
  | .hbm, ⟨6, _⟩ => ⟨S16x2048x256, .bf16⟩
  | .hbm, ⟨7, _⟩ => ⟨S256x256, .bf16⟩
  | .hbm, ⟨8, _⟩ => ⟨S256x256, .f32⟩
  | .hbm, ⟨9, _⟩ => ⟨S256x256, .f32⟩
  | .hbm, ⟨10, _⟩ => ⟨S256x256, .bf16⟩
  | .hbm, ⟨11, _⟩ => ⟨S32768x256, .bf16⟩
  | .hbm, ⟨12, _⟩ => ⟨S32768x256, .bf16⟩
  | .hbm, ⟨13, _⟩ => ⟨S32768x256, .f32⟩
  | .hbm, ⟨14, _⟩ => ⟨S32768x256, .f32⟩
  | .hbm, ⟨15, _⟩ => ⟨S32768x256, .f32⟩
  | .hbm, ⟨16, _⟩ => ⟨S32768x256, .f32⟩
  | .hbm, ⟨17, _⟩ => ⟨S32768x256, .f32⟩
  | .hbm, ⟨18, _⟩ => ⟨S16x2048x256, .f32⟩
  | .hbm, ⟨19, _⟩ => ⟨S16x2048x256, .bf16⟩
  | .hbm, ⟨20, _⟩ => ⟨S16x2048x256, .f32⟩
  | .hbm, ⟨21, _⟩ => ⟨S16x2048x256, .f32⟩
  | .hbm, ⟨22, _⟩ => ⟨S16x2048x256, .bf16⟩
  | .hbm, ⟨23, _⟩ => ⟨S16x2048x256, .bf16⟩
  | .hbm, ⟨24, _⟩ => ⟨S16x2048x256, .f32⟩
  | .hbm, ⟨25, _⟩ => ⟨S16x2048x256, .f32⟩
  | .hbm, ⟨26, _⟩ => ⟨S16x2048x256, .bf16⟩
  | .hbm, ⟨27, _⟩ => ⟨S16x2048x256, .f32⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x2048x256, .f32⟩
  | .local _ .vmem, ⟨9, _⟩ => ⟨S1x2048x256, .f32⟩
  | .local _ .vmem, ⟨10, _⟩ => ⟨S2048x1, .f32⟩
  | .local _ .vmem, ⟨11, _⟩ => ⟨S2048x1, .f32⟩
  | .local _ .vmem, ⟨12, _⟩ => ⟨S2048x256, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v51 : BitVec 1 := Scalar.cmpi .eq arg1 c1_i32
  let v52 : BitVec 32 := Scalar.extui v51
  let c0_i32_32 : BitVec 32 := 0#32
  let v53 : BitVec 1 := Scalar.cmpi .ne v52 c0_i32_32
  v53

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  shapeCasts_S16x2048x256_S32768x256 : S16x2048x256.ShapeCasts S32768x256
  shapeCasts_S32768x256_S16x2048x256 : S32768x256.ShapeCasts S16x2048x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  transposes_S1024x256_p1_0_S256x1024 : S1024x256.Transposes [1, 0] S256x1024
  reduces_S2048x1024_S2048 : S2048x1024.Reduces [1] S2048
  shapeCasts_S2048_S2048x1 : S2048.ShapeCasts S2048x1
  broadcasts_S2048x1_S2048x1024 : S2048x1.Broadcasts S2048x1024
  broadcasts_S2048x1_S2048x256 : S2048x1.Broadcasts S2048x256
  shapeCasts_S2048x256_S1x2048x256 : S2048x256.ShapeCasts S1x2048x256
  dot_S32768x256_S256x256_S32768x256_1_0_0_1_n_n_wf : DotDims.WF S32768x256 S256x256 S32768x256 [1] [0] [0] [1] [] []
  dot_S2048x256_S256x1024_S2048x1024_1_0_0_1_n_n_wf : DotDims.WF S2048x256 S256x1024 S2048x1024 [1] [0] [0] [1] [] []
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S16x2048x256.size a
  hwx0_0 : ∀ i : grid0.Coords, EltTy.bits .bf16 = 32 ∨ (Rect.block (s := S16x2048x256) S1x2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S16x2048x256.size a
  hwx0_1 : ∀ i : grid0.Coords, EltTy.bits .bf16 = 32 ∨ (Rect.block (s := S16x2048x256) S1x2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S16x2048x256.size a
  hwx0_2 : ∀ i : grid0.Coords, EltTy.bits .bf16 = 32 ∨ (Rect.block (s := S16x2048x256) S1x1024x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S16x2048x256.size a
  hwx0_3 : ∀ i : grid0.Coords, EltTy.bits .bf16 = 32 ∨ (Rect.block (s := S16x2048x256) S1x1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x256.size a ≤ S16x2048x256.size a
  hwx0_4 : ∀ i : grid0.Coords, EltTy.bits .f32 = 32 ∨ (Rect.block (s := S16x2048x256) S1x2048x256.size (cc0_transform_4 i) (hinb0_4 i)).WholeWords (EltTy.packing .f32)

variable [Facts₀]

def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_v16) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x2048x256 : Shape := ⟨3, ![16, 2048, 256]⟩
abbrev S256x256 : Shape := ⟨2, ![256, 256]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S256x256, .f32⟩
  | .hbm, ⟨3, _⟩ => ⟨S16x2048x256, .f32⟩
  | .hbm, ⟨4, _⟩ => ⟨S16x2048x2048, .f32⟩
  | .hbm, ⟨5, _⟩ => ⟨S_, .f32⟩
  | .hbm, ⟨6, _⟩ => ⟨S16x2048, .f32⟩
  | .hbm, ⟨7, _⟩ => ⟨S_, .f32⟩
  | .hbm, ⟨8, _⟩ => ⟨S16x2048, .f32⟩
  | .hbm, ⟨9, _⟩ => ⟨S16x2048, .f32⟩
  | .hbm, ⟨10, _⟩ => ⟨S16x2048x1, .f32⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S16x2048x2048, .f32⟩
  | .hbm, ⟨18, _⟩ => ⟨S16x2048x2048, .f32⟩
  | .hbm, ⟨19, _⟩ => ⟨S16x2048x256, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x256_S256x256_S16x2048x256_2_0_01_1_n_n_wf : DotDims.WF S16x2048x256 S256x256 S16x2048x256 [2] [0] [0, 1] [1] [] []
  dot_S16x2048x256_S16x2048x256_S16x2048x2048_2_2_1_1_0_0_wf : DotDims.WF S16x2048x256 S16x2048x256 S16x2048x2048 [2] [2] [1] [1] [0] [0]
  dot_S16x2048x2048_S16x2048x256_S16x2048x256_2_1_1_2_0_0_wf : DotDims.WF S16x2048x2048 S16x2048x256 S16x2048x256 [2] [1] [1] [2] [0] [0]

variable [Facts₀]

def dot_S16x2048x256_S256x256_S16x2048x256_2_0_01_1_n_n : DotDims S16x2048x256 S256x256 S16x2048x256 where
  lhsContracting := [2]
  rhsContracting := [0]
  lhsNonContracting := [0, 1]
  rhsNonContracting := [1]
  lhsBatch := []
  rhsBatch := []
  wf := dot_S16x2048x256_S256x256_S16x2048x256_2_0_01_1_n_n_wf
def dot_S16x2048x256_S16x2048x256_S16x2048x2048_2_2_1_1_0_0 : DotDims S16x2048x256 S16x2048x256 S16x2048x2048 where
  lhsContracting := [2]
  rhsContracting := [2]
  lhsNonContracting := [1]
  rhsNonContracting := [1]
  lhsBatch := [0]
  rhsBatch := [0]
  wf := dot_S16x2048x256_S16x2048x256_S16x2048x2048_2_2_1_1_0_0_wf
def dot_S16x2048x2048_S16x2048x256_S16x2048x256_2_1_1_2_0_0 : DotDims S16x2048x2048 S16x2048x256 S16x2048x256 where
  lhsContracting := [2]
  rhsContracting := [1]
  lhsNonContracting := [1]
  rhsNonContracting := [2]
  lhsBatch := [0]
  rhsBatch := [0]
  wf := dot_S16x2048x2048_S16x2048x256_S16x2048x256_2_1_1_2_0_0_wf

class Facts : Prop extends Facts₀ where

variable [Facts]
-- ==== Proof.Spec.lean ====
/-
  The function both programs compute, over REAL arrays, and how a real array is read as an array of extended reals.

  Bilinear cross-attention: with x, a of shape [16, 2048, 256] and W of shape [256, 256],
    proj  b r e = Σ_d x[b,r,d] · W[d,e]                       (the projected query row)
    score b r j = Σ_e proj b r e · a[b,j,e]                    (the score of query row r against key row j)
    attn  b r d = (Σ_j exp(score b r j) · a[b,j,d]) / (Σ_j exp(score b r j))
  the softmax-weighted sum of the rows of a, written WITHOUT a shift of the exponent: over the reals the quotient
  does not depend on the shift, which is what joins a running-maximum recurrence to a one-pass softmax.
-/
import Idealize.ShloMosaic.PureOps.Ideal
import Idealize.ShloMosaic.Lib.ValueIdx

noncomputable section

open scoped BigOperators

namespace Cert.Attn

open Idealize.ShloMosaic

/-- The projected query: row `r` of batch `b` of `x · W`. -/
def proj (x : Fin 16 → Fin 2048 → Fin 256 → ℝ) (W : Fin 256 → Fin 256 → ℝ) (b : Fin 16) (r : Fin 2048) (e : Fin 256) : ℝ :=
  ∑ d : Fin 256, x b r d * W d e

/-- The score of query row `r` against key row `j`, in batch `b`. -/
def score (x a : Fin 16 → Fin 2048 → Fin 256 → ℝ) (W : Fin 256 → Fin 256 → ℝ) (b : Fin 16) (r j : Fin 2048) : ℝ :=
  ∑ e : Fin 256, proj x W b r e * a b j e

/-- The attended value: the softmax over the key rows of the scores, applied to the rows of `a`; no shift in the exponent. -/
def attn (x a : Fin 16 → Fin 2048 → Fin 256 → ℝ) (W : Fin 256 → Fin 256 → ℝ) (b : Fin 16) (r : Fin 2048) (d : Fin 256) : ℝ :=
  (∑ j : Fin 2048, Real.exp (score x a W b r j) * a b j d) / ∑ j : Fin 2048, Real.exp (score x a W b r j)

/-- A real [16, 2048, 256] array read as an array of extended reals. -/
abbrev up3 (x : Fin 16 → Fin 2048 → Fin 256 → ℝ) : (⟨3, ![16, 2048, 256]⟩ : Shape).Idx → EReal :=
  fun i => ((x ⟨(i 0).val, (i 0).isLt⟩ ⟨(i 1).val, (i 1).isLt⟩ ⟨(i 2).val, (i 2).isLt⟩ : ℝ) : EReal)

/-- A real [256, 256] array read as an array of extended reals. -/
abbrev up2 (W : Fin 256 → Fin 256 → ℝ) : (⟨2, ![256, 256]⟩ : Shape).Idx → EReal :=
  fun i => ((W ⟨(i 0).val, (i 0).isLt⟩ ⟨(i 1).val, (i 1).isLt⟩ : ℝ) : EReal)

theorem up3_ix3 (x : Fin 16 → Fin 2048 → Fin 256 → ℝ) (b : Fin 16) (r : Fin 2048) (d : Fin 256) :
    up3 x (ValueIdx.ix3 b r d) = ((x b r d : ℝ) : EReal) := rfl

theorem up2_ix2 (W : Fin 256 → Fin 256 → ℝ) (d e : Fin 256) : up2 W (ValueIdx.ix2 d e) = ((W d e : ℝ) : EReal) := rfl

/-- The real part of an array of extended reals, entry by entry. -/
def dn3 (X : (⟨3, ![16, 2048, 256]⟩ : Shape).Idx → EReal) (b : Fin 16) (r : Fin 2048) (d : Fin 256) : ℝ :=
  (X (ValueIdx.ix3 b r d)).toReal

def dn2 (X : (⟨2, ![256, 256]⟩ : Shape).Idx → EReal) (d e : Fin 256) : ℝ := (X (ValueIdx.ix2 d e)).toReal

/-- An array all of whose entries are real is the reading of its real part. -/
theorem up3_dn3 (X : (⟨3, ![16, 2048, 256]⟩ : Shape).Idx → EReal) (h : ∀ i, X i ≠ ⊤ ∧ X i ≠ ⊥) : up3 (dn3 X) = X := by
  funext i
  obtain ⟨b, r, d, rfl⟩ : ∃ b r d, i = ValueIdx.ix3 b r d := ⟨i 0, i 1, i 2, ValueIdx.eq_ix3 i⟩
  exact EReal.coe_toReal (h _).1 (h _).2

theorem up2_dn2 (X : (⟨2, ![256, 256]⟩ : Shape).Idx → EReal) (h : ∀ i, X i ≠ ⊤ ∧ X i ≠ ⊥) : up2 (dn2 X) = X := by
  funext i
  obtain ⟨d, e, rfl⟩ : ∃ d e, i = ValueIdx.ix2 d e := ⟨i 0, i 1, ValueIdx.eq_ix2 i⟩
  exact EReal.coe_toReal (h _).1 (h _).2

end Cert.Attn

end
-- ==== Proof.LibSoftmax.lean ====
/-
  The algebra that joins the two programs, over the reals, and the few facts that carry it to the extended reals.

  Over the reals a softmax-weighted sum does not depend on the shift of its exponents:
    (Σ_j exp(S_j − c) · A_j) / (Σ_j exp(S_j − c)) = (Σ_j exp(S_j) · A_j) / (Σ_j exp(S_j))       for every real c,
  because exp(S_j − c) = exp(S_j) · exp(−c) and the common factor exp(−c) ≠ 0 cancels. A one-pass softmax (shift by the
  row maximum, normalise each weight, then sum) and a two-tile running recurrence (shift each tile by the running maximum,
  rescale the first tile's sums by exp(m₀ − m₁) when the maximum moves) are both instances, whatever the shifts are.
-/
import Idealize.ShloMosaic.PureOps.Ideal

noncomputable section

open scoped BigOperators

namespace Cert.Attn

open Idealize.ShloMosaic

/-! ## Reals inside the extended reals -/

/-- The coercion of a finite sum of reals is the sum of the coercions. -/
theorem coe_sum {ι : Type*} (s : Finset ι) (f : ι → ℝ) : ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- The quotient of two reals, the divisor not zero, is the real quotient. -/
theorem div_coe_coe (x y : ℝ) (hy : y ≠ 0) : Ideal.div (x : EReal) (y : EReal) = ((x / y : ℝ) : EReal) := by
  rw [Ideal.div_coe hy, ← EReal.coe_mul]
  congr 1
  rw [one_div, div_eq_mul_inv]

/-- The pattern of minus infinity. -/
theorem ofBits_neg_inf : Ideal.ofBits .f32 0xFF800000#32 = (⊥ : EReal) := by simp [Ideal.ofBits, Ideal.ieee]

/-- The pattern of zero. -/
theorem ofBits_zero : Ideal.ofBits .f32 0x00000000#32 = (0 : EReal) := by simp [Ideal.ofBits, Ideal.ieee]

/-- The large negative number the running maximum starts from is a real number (a normal float: its exponent
    field is 254, not 255). -/
theorem ofBits_neg_big : ∃ c : ℝ, Ideal.ofBits .f32 0xFF333332#32 = (c : EReal) := by
  have h : Ideal.ofBits .f32 0xFF333332#32 ≠ ⊤ ∧ Ideal.ofBits .f32 0xFF333332#32 ≠ ⊥ := by
    simp [Ideal.ofBits, Ideal.ieee, -EReal.coe_mul]
  exact ⟨_, (EReal.coe_toReal h.1 h.2).symm⟩

/-- The maximum of finitely many reals, folded from a start that is not plus infinity, over at least one of them, is a real. -/
theorem fold_max_real {n : ℕ} (hn : 0 < n) (f : Fin n → ℝ) (b : EReal) (hb : b ≠ ⊤) :
    ∃ M : ℝ, (Finset.univ : Finset (Fin n)).fold max b (fun k => ((f k : ℝ) : EReal)) = (M : EReal) := by
  set v := (Finset.univ : Finset (Fin n)).fold max b (fun k => ((f k : ℝ) : EReal)) with hv
  have hle : ((f ⟨0, hn⟩ : ℝ) : EReal) ≤ v := by
    rw [hv, Finset.le_fold_max]
    exact Or.inr ⟨⟨0, hn⟩, Finset.mem_univ _, le_rfl⟩
  have hlt : v < ⊤ := by
    rw [hv, Finset.fold_max_lt]
    exact ⟨lt_top_iff_ne_top.mpr hb, fun k _ => EReal.coe_lt_top _⟩
  have hbot : v ≠ ⊥ := fun e => by rw [e] at hle; exact absurd (le_bot_iff.mp hle) (EReal.coe_ne_bot _)
  exact ⟨v.toReal, (EReal.coe_toReal hlt.ne hbot).symm⟩

/-! ## The softmax over the reals -/

theorem sum_exp_pos {ι : Type*} [Fintype ι] [Nonempty ι] (S : ι → ℝ) : 0 < ∑ j, Real.exp (S j) :=
  Finset.sum_pos (fun j _ => Real.exp_pos _) Finset.univ_nonempty

/-- Shifting every exponent by the same real changes neither sum's ratio. -/
theorem softmax_shift {ι : Type*} [Fintype ι] (S A : ι → ℝ) (c : ℝ) :
    (∑ j, Real.exp (S j - c) * A j) / (∑ j, Real.exp (S j - c)) = (∑ j, Real.exp (S j) * A j) / ∑ j, Real.exp (S j) := by
  have h1 : ∑ j, Real.exp (S j - c) * A j = Real.exp (-c) * ∑ j, Real.exp (S j) * A j := by
    rw [Finset.mul_sum]
    refine Finset.sum_congr rfl fun j _ => ?_
    rw [sub_eq_add_neg, Real.exp_add]; ring
  have h2 : ∑ j, Real.exp (S j - c) = Real.exp (-c) * ∑ j, Real.exp (S j) := by
    rw [Finset.mul_sum]
    refine Finset.sum_congr rfl fun j _ => ?_
    rw [sub_eq_add_neg, Real.exp_add]; ring
  rw [h1, h2, mul_div_mul_left _ _ (Real.exp_pos _).ne']

/-- The one-pass softmax: each weight normalised first, then the weighted sum. -/
theorem softmax_ref {ι : Type*} [Fintype ι] [Nonempty ι] (S A : ι → ℝ) (c : ℝ) :
    ∑ j, (Real.exp (S j - c) / ∑ k, Real.exp (S k - c)) * A j = (∑ j, Real.exp (S j) * A j) / ∑ j, Real.exp (S j) := by
  rw [← softmax_shift S A c, Finset.sum_div]
  refine Finset.sum_congr rfl fun j _ => ?_
  ring

/-- The two-tile running recurrence: the first tile's sums, taken at the shift `m₀`, rescaled by `exp (m₀ − m₁)` and
    added to the second tile's at the shift `m₁`, are the sums over both tiles at the shift `m₁`; whatever the shifts. -/
theorem softmax_two_tiles {ι κ : Type*} [Fintype ι] [Fintype κ] (S₀ A₀ : ι → ℝ) (S₁ A₁ : κ → ℝ) (m₀ m₁ : ℝ) :
    (Real.exp (m₀ - m₁) * (∑ j, Real.exp (S₀ j - m₀) * A₀ j) + ∑ j, Real.exp (S₁ j - m₁) * A₁ j)
        / (Real.exp (m₀ - m₁) * (∑ j, Real.exp (S₀ j - m₀)) + ∑ j, Real.exp (S₁ j - m₁))
      = ((∑ j, Real.exp (S₀ j) * A₀ j) + ∑ j, Real.exp (S₁ j) * A₁ j) / ((∑ j, Real.exp (S₀ j)) + ∑ j, Real.exp (S₁ j)) := by
  have e0 : ∀ j, Real.exp (m₀ - m₁) * Real.exp (S₀ j - m₀) = Real.exp (-m₁) * Real.exp (S₀ j) := fun j => by
    rw [← Real.exp_add, ← Real.exp_add]; congr 1; ring
  have e1 : ∀ j, Real.exp (S₁ j - m₁) = Real.exp (-m₁) * Real.exp (S₁ j) := fun j => by
    rw [← Real.exp_add]; congr 1; ring
  have hn : Real.exp (m₀ - m₁) * (∑ j, Real.exp (S₀ j - m₀) * A₀ j) + ∑ j, Real.exp (S₁ j - m₁) * A₁ j
      = Real.exp (-m₁) * ((∑ j, Real.exp (S₀ j) * A₀ j) + ∑ j, Real.exp (S₁ j) * A₁ j) := by
    rw [mul_add, Finset.mul_sum, Finset.mul_sum, Finset.mul_sum]
    congr 1
    · exact Finset.sum_congr rfl fun j _ => by rw [← mul_assoc, e0, mul_assoc]
    · exact Finset.sum_congr rfl fun j _ => by rw [e1, mul_assoc]
  have hd : Real.exp (m₀ - m₁) * (∑ j, Real.exp (S₀ j - m₀)) + ∑ j, Real.exp (S₁ j - m₁)
      = Real.exp (-m₁) * ((∑ j, Real.exp (S₀ j)) + ∑ j, Real.exp (S₁ j)) := by
    rw [mul_add, Finset.mul_sum, Finset.mul_sum, Finset.mul_sum]
    congr 1
    · exact Finset.sum_congr rfl fun j _ => e0 j
    · exact Finset.sum_congr rfl fun j _ => e1 j
  rw [hn, hd, mul_div_mul_left _ _ (Real.exp_pos _).ne']

end Cert.Attn

end
-- ==== Proof.Steps.lean ====
/-
  One grid point of the running-softmax recurrence, as three functions of the point's four input blocks and of what the
  three carried buffers held before it: the new running maximum, the new denominator and the new weighted sum, each
  the body's stored value over its loads. The first point of a batch runs them from the reset values.
-/
import proofs.«407937_j88081189306550_3_alg».proof.Proof.Gen.KernelIdeal.Skeleton

noncomputable section

namespace Cert.Attn.Steps

open Idealize.ShloMosaic Cert.KernelIdeal Cert.KernelIdeal.Gen

variable {F : FTy → Type} [FloatOps F]

/-- The running maximum after a point: the larger of the one before and the row maxima of this point's scores. -/
def stepM (x0 : Vec F S1x2048x256 .bf16) (x1 : Vec F S1x2048x256 .bf16) (x2 : Vec F S1x1024x256 .bf16) (x3 : Vec F S1x1024x256 .bf16) (ms : Vec F S2048x1 .f32) : Vec F S2048x1 .f32 :=
  k0_pay3 (k0_pay11 x0 x1 x2 x3 ms)

/-- The denominator after a point: the one before, rescaled to the new maximum, plus the row sums of this point's weights. -/
def stepL (x0 : Vec F S1x2048x256 .bf16) (x1 : Vec F S1x2048x256 .bf16) (x2 : Vec F S1x1024x256 .bf16) (x3 : Vec F S1x1024x256 .bf16) (ms ls : Vec F S2048x1 .f32) : Vec F S2048x1 .f32 :=
  k0_pay1 (k0_pay14 x0 x1 x2 x3 ms ms ls) (k0_pay15 x0 x1 x2 x3 ms)

/-- The weighted sum after a point: the one before, rescaled, plus this point's weights times its key rows. -/
def stepAcc (x0 : Vec F S1x2048x256 .bf16) (x1 : Vec F S1x2048x256 .bf16) (x2 : Vec F S1x1024x256 .bf16) (x3 : Vec F S1x1024x256 .bf16) (ms : Vec F S2048x1 .f32) (accs : Vec F S2048x256 .f32) : Vec F S2048x256 .f32 :=
  k0_pay2 (k0_pay8 x2) (k0_pay9 x3) (k0_pay12 x0 x1 x2 x3 ms ms) (k0_pay13 x0 x1 x2 x3 ms) accs

/-- The reset values of the three carried buffers: the finite stand-in for minus infinity, zero, zero. -/
abbrev m0 : Vec F S2048x1 .f32 := k0_pay5
abbrev l0 : Vec F S2048x1 .f32 := k0_pay6
abbrev acc0 : Vec F S2048x256 .f32 := k0_pay7

end Cert.Attn.Steps

end
-- ==== Proof.BlockMath.lean ====
/-
  One grid point's arithmetic at the ideal instance, on REAL blocks: each value the body stores, read at an index.

  The blocks of a point are a [2048, 256] block q of projected queries (its low-order companion zero) and a
  [1024, 256] block k of key rows (its companion zero). The body forms the score tile s = q · kᵀ (two more products
  with the zero companions add nothing), the new running maximum m' = max(m, row maxima of s), the weights
  p = exp(s − m'), the rescale factor exp(m − m'), and updates the denominator and the weighted sum.
-/
import proofs.«407937_j88081189306550_3_alg».proof.Proof.Steps
import proofs.«407937_j88081189306550_3_alg».proof.Proof.LibSoftmax
import Idealize.ShloMosaic.Lib.Pipeline.Value
import Idealize.ShloMosaic.Lib.ValueIdx
import Idealize.ShloMosaic.PureOps.Ideal.Laws

noncomputable section

open scoped BigOperators

namespace Cert.Attn.Block

open Idealize.ShloMosaic Idealize.ShloMosaic.ValueIdx Cert.KernelIdeal Cert.KernelIdeal.Gen Cert.Attn Cert.Attn.Steps

/-! ## The layout operations and reductions of the body, read at an index -/

section Layout
variable {α : Type}

/-- A [1, 2048, 256] block viewed [2048, 256]. -/
theorem dropQ (v : S1x2048x256.Idx → α) (h : S1x2048x256.ShapeCasts S2048x256) (r : Fin 2048) (e : Fin 256) :
    shapeCast S2048x256 v h (ix2 r e) = v (ix3 (0 : Fin 1) r e) := by
  refine (shapeCast_dropUnit_apply ![2048, 256] v h (ix2 r e)).trans (congrArg v ?_)
  funext a; match a with | ⟨0, _⟩ => rfl | ⟨1, _⟩ => rfl | ⟨2, _⟩ => rfl

/-- A [1, 1024, 256] block viewed [1024, 256]. -/
theorem dropK (v : S1x1024x256.Idx → α) (h : S1x1024x256.ShapeCasts S1024x256) (j : Fin 1024) (e : Fin 256) :
    shapeCast S1024x256 v h (ix2 j e) = v (ix3 (0 : Fin 1) j e) := by
  refine (shapeCast_dropUnit_apply ![1024, 256] v h (ix2 j e)).trans (congrArg v ?_)
  funext a; match a with | ⟨0, _⟩ => rfl | ⟨1, _⟩ => rfl | ⟨2, _⟩ => rfl

/-- A [2048, 256] value stored as a [1, 2048, 256] block. -/
theorem addOut (v : S2048x256.Idx → α) (h : S2048x256.ShapeCasts S1x2048x256) (r : Fin 2048) (d : Fin 256) :
    shapeCast S1x2048x256 v h (ix3 (0 : Fin 1) r d) = v (ix2 r d) := by
  refine (shapeCast_addUnit_apply ![2048, 256] v h (ix3 (0 : Fin 1) r d)).trans (congrArg v ?_)
  funext a; match a with | ⟨0, _⟩ => rfl | ⟨1, _⟩ => rfl

/-- The transpose of the key block. -/
theorem transK (v : S1024x256.Idx → α) (h : S1024x256.Transposes [1, 0] S256x1024) (e : Fin 256) (j : Fin 1024) :
    transpose S256x1024 [1, 0] v h (ix2 e j) = v (ix2 j e) :=
  transpose_apply [1, 0] v h (ix2 e j) (ix2 j e) fun b => match b with | ⟨0, _⟩ => rfl | ⟨1, _⟩ => rfl

/-- A vector of 2048 row values as a [2048, 1] column. -/
theorem colCast (v : S2048.Idx → α) (h : S2048.ShapeCasts S2048x1) (r : Fin 2048) :
    shapeCast S2048x1 v h (ix2 r (0 : Fin 1)) = v (ix1 r) :=
  shapeCast_apply v h (ix2 r (0 : Fin 1)) (ix1 r) (by
    rw [Shape.rowMajor_val_one, Shape.rowMajor_val_two]
    show r.val = r.val * 1 + 0
    omega)

/-- A column broadcast along 1024 lanes. -/
theorem bcastS (v : S2048x1.Idx → α) (h : S2048x1.Broadcasts S2048x1024) (r : Fin 2048) (j : Fin 1024) :
    broadcastTo S2048x1024 v h (ix2 r j) = v (ix2 r (0 : Fin 1)) :=
  broadcastTo_apply v h (ix2 r j) (ix2 r (0 : Fin 1)) fun a => match a with
    | ⟨0, _⟩ => by show r.val = if (2048 : Nat) = 1 then 0 else r.val; rw [if_neg (by decide)]
    | ⟨1, _⟩ => by show 0 = if (1 : Nat) = 1 then 0 else j.val; rw [if_pos rfl]

/-- A column broadcast along 256 lanes. -/
theorem bcastD (v : S2048x1.Idx → α) (h : S2048x1.Broadcasts S2048x256) (r : Fin 2048) (d : Fin 256) :
    broadcastTo S2048x256 v h (ix2 r d) = v (ix2 r (0 : Fin 1)) :=
  broadcastTo_apply v h (ix2 r d) (ix2 r (0 : Fin 1)) fun a => match a with
    | ⟨0, _⟩ => by show r.val = if (2048 : Nat) = 1 then 0 else r.val; rw [if_neg (by decide)]
    | ⟨1, _⟩ => by show 0 = if (1 : Nat) = 1 then 0 else d.val; rw [if_pos rfl]

end Layout

/-- The row maximum of a [2048, 1024] tile, from minus infinity. -/
theorem rowMax (s : FVec Ideal S2048x1024 .f32) (h : S2048x1024.Reduces [1] S2048) (hφ : FKind.Formats .f32)
    (hacc : (0xFF800000#32 : BitVec 32) = 0xFF800000#32) (r : Fin 2048) :
    multiReduction .maximumf [1] S2048 s 0xFF800000#32 h hφ hacc (ix1 r)
      = (Finset.univ : Finset (Fin 1024)).fold max (⊥ : EReal) (fun j => s (ix2 r j)) := by
  refine (Ideal.multiReduction_maximumf_single s 0xFF800000#32 h hφ hacc (ix1 r)).trans ?_
  show (Finset.univ : Finset (Fin 1024)).fold max (Ideal.ofBits .f32 0xFF800000#32) (s ∘ h.lift (ix1 r)) = _
  rw [ofBits_neg_inf]
  congr 1
  funext j
  exact congrArg s (funext fun a => Fin.ext (by match a with | ⟨0, _⟩ => rfl | ⟨1, _⟩ => rfl))

/-- The row sum of a [2048, 1024] tile. -/
theorem rowSum (s : FVec Ideal S2048x1024 .f32) (h : S2048x1024.Reduces [1] S2048) (hφ : FKind.Formats .f32)
    (hacc : (0x00000000#32 : BitVec 32) = 0x00000000#32) (r : Fin 2048) :
    multiReduction .add [1] S2048 s 0x00000000#32 h hφ hacc (ix1 r) = ∑ j : Fin 1024, s (ix2 r j) := by
  refine (Ideal.multiReduction_add_single s 0x00000000#32 h hφ hacc (ix1 r)).trans ?_
  show ∑ j : Fin 1024, s (h.lift (ix1 r) j) = _
  refine Finset.sum_congr rfl fun j _ => ?_
  exact congrArg s (funext fun a => Fin.ext (by match a with | ⟨0, _⟩ => rfl | ⟨1, _⟩ => rfl))

/-! ## The two matrix products, read at an index -/

local notation "D1" => dot_S2048x256_S256x1024_S2048x1024_1_0_0_1_n_n
local notation "D2" => dot_S2048x1024_S1024x256_S2048x256_1_0_0_1_n_n

theorem lhs1_0 (i : S2048x1024.Idx) (q : dot_S2048x256_S256x1024_S2048x1024_1_0_0_1_n_n.contr.Idx) :
    (dot_S2048x256_S256x1024_S2048x1024_1_0_0_1_n_n.lhsIdx i q 0).val = (i 0).val := by
  unfold DotDims.lhsIdx
  rw [dif_neg (show ¬(0 : Fin S2048x256.rank) ∈ dot_S2048x256_S256x1024_S2048x1024_1_0_0_1_n_n.lhsBatch by decide), dif_pos (show (0 : Fin S2048x256.rank) ∈ dot_S2048x256_S256x1024_S2048x1024_1_0_0_1_n_n.lhsNonContracting by decide)]
  rfl
theorem lhs1_1 (i : S2048x1024.Idx) (q : dot_S2048x256_S256x1024_S2048x1024_1_0_0_1_n_n.contr.Idx) :
    (dot_S2048x256_S256x1024_S2048x1024_1_0_0_1_n_n.lhsIdx i q 1).val = (q ⟨0, by decide⟩).val :=
  dot_S2048x256_S256x1024_S2048x1024_1_0_0_1_n_n.lhsIdx_val_of_single rfl i q
theorem rhs1_0 (i : S2048x1024.Idx) (q : dot_S2048x256_S256x1024_S2048x1024_1_0_0_1_n_n.contr.Idx) :
    (dot_S2048x256_S256x1024_S2048x1024_1_0_0_1_n_n.rhsIdx i q 0).val = (q ⟨0, by decide⟩).val :=
  dot_S2048x256_S256x1024_S2048x1024_1_0_0_1_n_n.rhsIdx_val_of_single rfl i q
theorem rhs1_1 (i : S2048x1024.Idx) (q : dot_S2048x256_S256x1024_S2048x1024_1_0_0_1_n_n.contr.Idx) :
    (dot_S2048x256_S256x1024_S2048x1024_1_0_0_1_n_n.rhsIdx i q 1).val = (i 1).val := by
  unfold DotDims.rhsIdx
  rw [dif_neg (show ¬(1 : Fin S256x1024.rank) ∈ dot_S2048x256_S256x1024_S2048x1024_1_0_0_1_n_n.rhsBatch by decide), dif_pos (show (1 : Fin S256x1024.rank) ∈ dot_S2048x256_S256x1024_S2048x1024_1_0_0_1_n_n.rhsNonContracting by decide)]
  rfl

/-- The score product at (r, j): the sum over the 256 features of the query row's entry times the transposed key's. -/
theorem mm1 (l : FVec Ideal S2048x256 .bf16) (rr : FVec Ideal S256x1024 .bf16) (r : Fin 2048) (j : Fin 1024) :
    matmul dot_S2048x256_S256x1024_S2048x1024_1_0_0_1_n_n none l rr (constant S2048x1024 .f32 0x00000000#32) (ix2 r j)
      = ∑ e : Fin 256, l (ix2 r e) * rr (ix2 e j) := by
  simp only [matmul]
  rw [Ideal.matmul_constant_zero_apply, ← Equiv.sum_comp (ValueIdx.contrEquiv1 dot_S2048x256_S256x1024_S2048x1024_1_0_0_1_n_n 256 rfl rfl).symm]
  refine Finset.sum_congr rfl fun k _ => ?_
  have hk := ValueIdx.contrEquiv1_symm_val dot_S2048x256_S256x1024_S2048x1024_1_0_0_1_n_n 256 rfl rfl k
  have el : dot_S2048x256_S256x1024_S2048x1024_1_0_0_1_n_n.lhsIdx (ix2 r j) ((ValueIdx.contrEquiv1 dot_S2048x256_S256x1024_S2048x1024_1_0_0_1_n_n 256 rfl rfl).symm k) = ix2 r k := funext fun a => Fin.ext (by
    match a with
    | ⟨0, _⟩ => exact lhs1_0 _ _
    | ⟨1, _⟩ => exact (lhs1_1 _ _).trans hk)
  have er : dot_S2048x256_S256x1024_S2048x1024_1_0_0_1_n_n.rhsIdx (ix2 r j) ((ValueIdx.contrEquiv1 dot_S2048x256_S256x1024_S2048x1024_1_0_0_1_n_n 256 rfl rfl).symm k) = ix2 k j := funext fun a => Fin.ext (by
    match a with
    | ⟨0, _⟩ => exact (rhs1_0 _ _).trans hk
    | ⟨1, _⟩ => exact rhs1_1 _ _)
  rw [el, er]

theorem lhs2_0 (i : S2048x256.Idx) (q : dot_S2048x1024_S1024x256_S2048x256_1_0_0_1_n_n.contr.Idx) :
    (dot_S2048x1024_S1024x256_S2048x256_1_0_0_1_n_n.lhsIdx i q 0).val = (i 0).val := by
  unfold DotDims.lhsIdx
  rw [dif_neg (show ¬(0 : Fin S2048x1024.rank) ∈ dot_S2048x1024_S1024x256_S2048x256_1_0_0_1_n_n.lhsBatch by decide), dif_pos (show (0 : Fin S2048x1024.rank) ∈ dot_S2048x1024_S1024x256_S2048x256_1_0_0_1_n_n.lhsNonContracting by decide)]
  rfl
theorem lhs2_1 (i : S2048x256.Idx) (q : dot_S2048x1024_S1024x256_S2048x256_1_0_0_1_n_n.contr.Idx) :
    (dot_S2048x1024_S1024x256_S2048x256_1_0_0_1_n_n.lhsIdx i q 1).val = (q ⟨0, by decide⟩).val :=
  dot_S2048x1024_S1024x256_S2048x256_1_0_0_1_n_n.lhsIdx_val_of_single rfl i q
theorem rhs2_0 (i : S2048x256.Idx) (q : dot_S2048x1024_S1024x256_S2048x256_1_0_0_1_n_n.contr.Idx) :
    (dot_S2048x1024_S1024x256_S2048x256_1_0_0_1_n_n.rhsIdx i q 0).val = (q ⟨0, by decide⟩).val :=
  dot_S2048x1024_S1024x256_S2048x256_1_0_0_1_n_n.rhsIdx_val_of_single rfl i q
theorem rhs2_1 (i : S2048x256.Idx) (q : dot_S2048x1024_S1024x256_S2048x256_1_0_0_1_n_n.contr.Idx) :
    (dot_S2048x1024_S1024x256_S2048x256_1_0_0_1_n_n.rhsIdx i q 1).val = (i 1).val := by
  unfold DotDims.rhsIdx
  rw [dif_neg (show ¬(1 : Fin S1024x256.rank) ∈ dot_S2048x1024_S1024x256_S2048x256_1_0_0_1_n_n.rhsBatch by decide), dif_pos (show (1 : Fin S1024x256.rank) ∈ dot_S2048x1024_S1024x256_S2048x256_1_0_0_1_n_n.rhsNonContracting by decide)]
  rfl

/-- The context product at (r, d): the sum over the tile's 1024 key rows of the weight times the key row's entry. -/
theorem mm2 (p : FVec Ideal S2048x1024 .bf16) (v : FVec Ideal S1024x256 .bf16) (r : Fin 2048) (d : Fin 256) :
    matmul dot_S2048x1024_S1024x256_S2048x256_1_0_0_1_n_n none p v (constant S2048x256 .f32 0x00000000#32) (ix2 r d)
      = ∑ j : Fin 1024, p (ix2 r j) * v (ix2 j d) := by
  simp only [matmul]
  rw [Ideal.matmul_constant_zero_apply, ← Equiv.sum_comp (ValueIdx.contrEquiv1 dot_S2048x1024_S1024x256_S2048x256_1_0_0_1_n_n 1024 rfl rfl).symm]
  refine Finset.sum_congr rfl fun k _ => ?_
  have hk := ValueIdx.contrEquiv1_symm_val dot_S2048x1024_S1024x256_S2048x256_1_0_0_1_n_n 1024 rfl rfl k
  have el : dot_S2048x1024_S1024x256_S2048x256_1_0_0_1_n_n.lhsIdx (ix2 r d) ((ValueIdx.contrEquiv1 dot_S2048x1024_S1024x256_S2048x256_1_0_0_1_n_n 1024 rfl rfl).symm k) = ix2 r k := funext fun a => Fin.ext (by
    match a with
    | ⟨0, _⟩ => exact lhs2_0 _ _
    | ⟨1, _⟩ => exact (lhs2_1 _ _).trans hk)
  have er : dot_S2048x1024_S1024x256_S2048x256_1_0_0_1_n_n.rhsIdx (ix2 r d) ((ValueIdx.contrEquiv1 dot_S2048x1024_S1024x256_S2048x256_1_0_0_1_n_n 1024 rfl rfl).symm k) = ix2 k d := funext fun a => Fin.ext (by
    match a with
    | ⟨0, _⟩ => exact (rhs2_0 _ _).trans hk
    | ⟨1, _⟩ => exact rhs2_1 _ _)
  rw [el, er]

end Cert.Attn.Block

end
-- ==== Proof.BlockReal.lean ====
/-
  One grid point's arithmetic at the ideal instance, on REAL blocks: each value the body stores is the reading of a
  real formula (the scores, the new running maximum, the weights, the rescaled denominator and weighted sum).
-/
import proofs.«407937_j88081189306550_3_alg».proof.Proof.BlockMath

set_option maxRecDepth 16384

noncomputable section

open scoped BigOperators

namespace Cert.Attn.Block

open Idealize.ShloMosaic Idealize.ShloMosaic.ValueIdx Cert.KernelIdeal Cert.KernelIdeal.Gen Cert.Attn Cert.Attn.Steps

/-- The elementwise exponential read at an index. -/
theorem exp_at {s : Shape} {φ : FTy} (v : FVec Ideal s φ) (i : s.Idx) : exp v i = Ideal.exp (v i) := rfl

/-! ## Real blocks read as blocks of extended reals -/

/-- A real [2048, 256] block as a [1, 2048, 256] block. -/
abbrev upQ (Q : Fin 2048 → Fin 256 → ℝ) : S1x2048x256.Idx → EReal :=
  fun i => ((Q ⟨(i 1).val, (i 1).isLt⟩ ⟨(i 2).val, (i 2).isLt⟩ : ℝ) : EReal)
/-- A real [1024, 256] block as a [1, 1024, 256] block. -/
abbrev upK (K : Fin 1024 → Fin 256 → ℝ) : S1x1024x256.Idx → EReal :=
  fun i => ((K ⟨(i 1).val, (i 1).isLt⟩ ⟨(i 2).val, (i 2).isLt⟩ : ℝ) : EReal)
/-- 2048 reals as a [2048, 1] column. -/
abbrev upCol (M : Fin 2048 → ℝ) : S2048x1.Idx → EReal := fun i => ((M ⟨(i 0).val, (i 0).isLt⟩ : ℝ) : EReal)
/-- A real [2048, 256] matrix. -/
abbrev upMat (C : Fin 2048 → Fin 256 → ℝ) : S2048x256.Idx → EReal :=
  fun i => ((C ⟨(i 0).val, (i 0).isLt⟩ ⟨(i 1).val, (i 1).isLt⟩ : ℝ) : EReal)

/-- The zero blocks (the low-order companions of real blocks). -/
abbrev zQ : S1x2048x256.Idx → EReal := fun _ => 0
abbrev zK : S1x1024x256.Idx → EReal := fun _ => 0

/-! ## The point's values over the reals -/

/-- The score of query row `r` against key row `j` of the tile. -/
def sc (Q : Fin 2048 → Fin 256 → ℝ) (K : Fin 1024 → Fin 256 → ℝ) (r : Fin 2048) (j : Fin 1024) : ℝ := ∑ e : Fin 256, Q r e * K j e

/-- The running maximum after a tile whose row has scores `s`, from the maximum `M` before it: a real. -/
def mnew (M : ℝ) (s : Fin 1024 → ℝ) : ℝ :=
  (max (M : EReal) ((Finset.univ : Finset (Fin 1024)).fold max (⊥ : EReal) (fun j => ((s j : ℝ) : EReal)))).toReal

theorem mnew_spec (M : ℝ) (s : Fin 1024 → ℝ) :
    max (M : EReal) ((Finset.univ : Finset (Fin 1024)).fold max (⊥ : EReal) (fun j => ((s j : ℝ) : EReal))) = ((mnew M s : ℝ) : EReal) := by
  obtain ⟨F, hF⟩ := fold_max_real (n := 1024) (by decide) s ⊥ (by simp)
  unfold mnew
  rw [hF, ← EReal.coe_strictMono.monotone.map_max, EReal.toReal_coe]

/-- The denominator after the tile. -/
def lnew (M L : ℝ) (s : Fin 1024 → ℝ) : ℝ := Real.exp (M - mnew M s) * L + ∑ j : Fin 1024, Real.exp (s j - mnew M s)

/-- The weighted sum after the tile, at one feature (the key rows' entries `k j`). -/
def cnew (M C : ℝ) (s k : Fin 1024 → ℝ) : ℝ := Real.exp (M - mnew M s) * C + ∑ j : Fin 1024, Real.exp (s j - mnew M s) * k j

/-! ## The payloads on real blocks -/

section Payloads
variable (Q : Fin 2048 → Fin 256 → ℝ) (K : Fin 1024 → Fin 256 → ℝ) (M L : Fin 2048 → ℝ) (C : Fin 2048 → Fin 256 → ℝ)

/-- The transposed key block at (e, j) is the key row j's entry e; the transposed zero companion is zero. -/
theorem keyT (e : Fin 256) (j : Fin 1024) :
    transpose S256x1024 [1, 0] (shapeCast S1024x256 (upK K) shapeCasts_S1x1024x256_S1024x256) transposes_S1024x256_p1_0_S256x1024 (ix2 e j)
      = ((K j e : ℝ) : EReal) := by rw [transK, dropK]
theorem zeroT (e : Fin 256) (j : Fin 1024) :
    transpose S256x1024 [1, 0] (shapeCast S1024x256 zK shapeCasts_S1x1024x256_S1024x256) transposes_S1024x256_p1_0_S256x1024 (ix2 e j)
      = (0 : EReal) := by rw [transK, dropK]

/-- The score tile: the two products against the zero companions vanish. -/
theorem pay10_at (r : Fin 2048) (j : Fin 1024) :
    k0_pay10 (F := Ideal) (upQ Q) zQ (upK K) zK (ix2 r j) = ((sc Q K r j : ℝ) : EReal) := by
  unfold k0_pay10 k0_pay8 k0_pay9
  have hA := fun e => keyT K e j
  have hB := fun e => zeroT e j
  simp only [addf_apply, mm1, dropQ, hA, hB, mul_zero, zero_mul, Finset.sum_const_zero, add_zero]
  rw [sc, coe_sum]
  exact Finset.sum_congr rfl fun e _ => (EReal.coe_mul _ _).symm

/-- The new running maximum. -/
theorem pay11_at (r : Fin 2048) :
    k0_pay11 (F := Ideal) (upQ Q) zQ (upK K) zK (upCol M) (ix2 r (0 : Fin 1)) = ((mnew (M r) (sc Q K r) : ℝ) : EReal) := by
  unfold k0_pay11
  dsimp only
  rw [maximumf_apply, colCast]
  refine (congrArg (max _) (rowMax _ _ _ _ r)).trans ?_
  have h : (fun j : Fin 1024 => k0_pay10 (F := Ideal) (upQ Q) zQ (upK K) zK (ix2 r j)) = fun j => ((sc Q K r j : ℝ) : EReal) :=
    funext fun j => pay10_at Q K r j
  rw [h]
  exact mnew_spec (M r) (sc Q K r)

/-- The rescale factor of the sums carried from before the tile. -/
theorem pay12_at (r : Fin 2048) :
    k0_pay12 (F := Ideal) (upQ Q) zQ (upK K) zK (upCol M) (upCol M) (ix2 r (0 : Fin 1))
      = ((Real.exp (M r - mnew (M r) (sc Q K r)) : ℝ) : EReal) := by
  unfold k0_pay12
  rw [exp_at, subf_apply, pay11_at]
  show Ideal.exp (((M r : ℝ) : EReal) - ((mnew (M r) (sc Q K r) : ℝ) : EReal)) = _
  rw [← EReal.coe_sub, Ideal.exp_coe]

/-- The tile's weights. -/
theorem pay13_at (r : Fin 2048) (j : Fin 1024) :
    k0_pay13 (F := Ideal) (upQ Q) zQ (upK K) zK (upCol M) (ix2 r j)
      = ((Real.exp (sc Q K r j - mnew (M r) (sc Q K r)) : ℝ) : EReal) := by
  unfold k0_pay13
  rw [exp_at, subf_apply, bcastS, pay10_at, pay11_at, ← EReal.coe_sub, Ideal.exp_coe]

/-- The carried denominator, rescaled. -/
theorem pay14_at (r : Fin 2048) :
    k0_pay14 (F := Ideal) (upQ Q) zQ (upK K) zK (upCol M) (upCol M) (upCol L) (ix2 r (0 : Fin 1))
      = ((Real.exp (M r - mnew (M r) (sc Q K r)) * L r : ℝ) : EReal) := by
  unfold k0_pay14
  rw [mulf_apply, pay12_at]
  exact (EReal.coe_mul _ _).symm

/-- The row sums of the tile's weights. -/
theorem pay15_at (r : Fin 2048) :
    k0_pay15 (F := Ideal) (upQ Q) zQ (upK K) zK (upCol M) (ix1 r)
      = ((∑ j : Fin 1024, Real.exp (sc Q K r j - mnew (M r) (sc Q K r)) : ℝ) : EReal) := by
  unfold k0_pay15
  refine (rowSum _ _ _ _ r).trans ?_
  rw [coe_sum]
  exact Finset.sum_congr rfl fun j _ => pay13_at Q K M r j

/-- Every [2048, 1] index is a row and the one lane. -/
theorem col_ix (i : S2048x1.Idx) : ∃ r : Fin 2048, i = ix2 r (0 : Fin 1) :=
  ⟨⟨(i 0).val, (i 0).isLt⟩, funext fun a => match a with
    | ⟨0, _⟩ => rfl
    | ⟨1, _⟩ => Fin.ext (by have h : (i 1).val < 1 := (i 1).isLt; show (i 1).val = 0; omega)⟩

/-- THE NEW RUNNING MAXIMUM, as a column of reals. -/
theorem stepM_eq :
    stepM (F := Ideal) (upQ Q) zQ (upK K) zK (upCol M) = upCol (fun r => mnew (M r) (sc Q K r)) := by
  funext i
  obtain ⟨r, rfl⟩ := col_ix i
  unfold stepM k0_pay3
  rw [shapeCast_self]
  exact pay11_at Q K M r

/-- THE NEW DENOMINATOR, as a column of reals. -/
theorem stepL_eq :
    stepL (F := Ideal) (upQ Q) zQ (upK K) zK (upCol M) (upCol L) = upCol (fun r => lnew (M r) (L r) (sc Q K r)) := by
  funext i
  obtain ⟨r, rfl⟩ := col_ix i
  unfold stepL k0_pay1
  rw [shapeCast_self, addf_apply, colCast, pay14_at, pay15_at]
  exact (EReal.coe_add _ _).symm

/-- THE NEW WEIGHTED SUM, as a matrix of reals: the product with the zero companion of the keys adds nothing. -/
theorem stepAcc_eq :
    stepAcc (F := Ideal) (upQ Q) zQ (upK K) zK (upCol M) (upMat C)
      = upMat (fun r d => cnew (M r) (C r d) (sc Q K r) (fun j => K j d)) := by
  funext i
  obtain ⟨r, d, rfl⟩ : ∃ (r : Fin 2048) (d : Fin 256), i = ix2 r d := ⟨i 0, i 1, eq_ix2 i⟩
  unfold stepAcc k0_pay2 k0_pay8 k0_pay9
  rw [shapeCast_self, addf_apply, mulf_apply, bcastD, pay12_at, addf_apply, mm2, mm2]
  have hv : ∀ j : Fin 1024, shapeCast S1024x256 (upK K) shapeCasts_S1x1024x256_S1024x256 (ix2 j d) = ((K j d : ℝ) : EReal) :=
    fun j => by rw [dropK]
  have hz : ∀ j : Fin 1024, shapeCast S1024x256 zK shapeCasts_S1x1024x256_S1024x256 (ix2 j d) = (0 : EReal) :=
    fun j => by rw [dropK]
  have hp : ∀ j : Fin 1024, truncf .bf16 (k0_pay13 (F := Ideal) (upQ Q) zQ (upK K) zK (upCol M)) bitsLt_bf16_f32 (ix2 r j)
      = ((Real.exp (sc Q K r j - mnew (M r) (sc Q K r)) : ℝ) : EReal) := fun j => by rw [truncf_apply, pay13_at]
  simp only [hv, hz, hp, mul_zero, Finset.sum_const_zero, add_zero]
  show ((Real.exp (M r - mnew (M r) (sc Q K r)) : ℝ) : EReal) * ((C r d : ℝ) : EReal)
      + ∑ j : Fin 1024, ((Real.exp (sc Q K r j - mnew (M r) (sc Q K r)) : ℝ) : EReal) * ((K j d : ℝ) : EReal)
    = ((cnew (M r) (C r d) (sc Q K r) (fun j => K j d) : ℝ) : EReal)
  rw [cnew, EReal.coe_add, EReal.coe_mul, coe_sum]
  exact congrArg _ (Finset.sum_congr rfl fun j _ => (EReal.coe_mul _ _).symm)

/-- THE QUOTIENT the last point of a batch stores: the weighted sum over the denominator, where that is not zero. -/
theorem pay4_eq (hL : ∀ r, L r ≠ 0) :
    k0_pay4 (F := Ideal) (upMat C) (upCol L) = upQ (fun r d => C r d / L r) := by
  funext i
  obtain ⟨z, r, d, rfl⟩ : ∃ (z : Fin 1) (r : Fin 2048) (d : Fin 256), i = ix3 z r d := ⟨i 0, i 1, i 2, eq_ix3 i⟩
  obtain rfl : z = 0 := Subsingleton.elim _ _
  unfold k0_pay4
  rw [addOut, divf_apply, bcastD]
  exact div_coe_coe (C r d) (L r) (hL r)

end Payloads

/-! ## The reset values: a real column (the large negative start of the maximum), the zero column, the zero matrix -/

theorem m0_eq : ∃ c : ℝ, (m0 (F := Ideal)) = upCol (fun _ => c) := by
  obtain ⟨c, hc⟩ := ofBits_neg_big
  refine ⟨c, ?_⟩
  funext i
  unfold m0 k0_pay5
  rw [shapeCast_self]
  exact hc

theorem l0_eq : (l0 (F := Ideal)) = upCol (fun _ => 0) := by
  funext i
  unfold l0 k0_pay6
  rw [shapeCast_self]
  exact ofBits_zero

theorem acc0_eq : (acc0 (F := Ideal)) = upMat (fun _ _ => 0) := by
  funext i
  unfold acc0 k0_pay7
  rw [shapeCast_self]
  exact ofBits_zero

end Cert.Attn.Block

end
-- ==== Proof.Pieces.lean ====
/-
  What each control case of the body leaves in the three carried buffers and in the output block, as values.

  A buffer that a store covers whole holds that store's payload, whatever was stored before; a load of a buffer after
  one covering store reads that store's payload back; a load of a buffer nothing has stored to yet reads what the
  buffer held. So the first key tile of a batch (reset, read back, update) leaves the update over the reset values,
  the second leaves the update over the carried contents, and its quotient is taken of the sum and the denominator
  it has just stored.
-/
import proofs.«407937_j88081189306550_3_alg».proof.Proof.Steps
import proofs.«407937_j88081189306550_3_alg».proof.Proof.Gen.KernelIdeal.Frame
import Idealize.ShloMosaic.Lib.Pipeline.Value
import Idealize.ShloMosaic.Lib.Tactic

set_option maxRecDepth 16384

noncomputable section

namespace Cert.Attn.Pieces

open Idealize.ShloMosaic Idealize.ShloMosaic.TcCoe Idealize.SL.Sem Cert.KernelIdeal Cert.KernelIdeal.Gen Cert.Attn.Steps

variable {F : FTy → Type} [FloatOps F]

/-- The all-zero offset of a rank-2 block, as the constant function. -/
private theorem hz2 : (![0, 0] : Fin 2 → Nat) = fun _ => 0 := funext fun a => by fin_cases a <;> rfl

/-- The all-zero offset of a rank-3 block, as the constant function. -/
private theorem hz3 : (![0, 0, 0] : Fin 3 → Nat) = fun _ => 0 := funext fun a => by fin_cases a <;> rfl

theorem sout_A_0 (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x2048x256 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x256 .f32) (harg9 : arg9.IsWhole) (hc0 : cond0_0 i) (hc1 : ¬cond0_1 i) (x0 : Vec F S1x2048x256 .bf16) (x1 : Vec F S1x2048x256 .bf16) (x2 : Vec F S1x1024x256 .bf16) (x3 : Vec F S1x1024x256 .bf16) :
    sout0_A_0 c i arg2 harg2 arg3 harg3 arg4 harg4 arg5 harg5 arg6 harg6 arg7 harg7 arg8 harg8 arg9 harg9 hc0 hc1 x0 x1 x2 x3 = stepM x0 x1 x2 x3 m0 := by
  -- The last store covers the buffer, so the buffer holds its payload; that payload's load of the buffer reads the reset
  -- value back (one covering store before it), and its loads of the input blocks read the blocks.
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S2048x1) hz2]
  simp only [View.readAt_eq_ld, harg2.read_unread, harg3.read_unread, harg4.read_unread, harg5.read_unread,
    View.ld_unit_zero (S := S1x2048x256) hz3, View.ld_unit_zero (S := S1x1024x256) hz3, View.readCov_unit_zero (S := S2048x1) _ hz2]
  rfl

theorem sout_A_1 (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x2048x256 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x256 .f32) (harg9 : arg9.IsWhole) (hc0 : cond0_0 i) (hc1 : ¬cond0_1 i) (x0 : Vec F S1x2048x256 .bf16) (x1 : Vec F S1x2048x256 .bf16) (x2 : Vec F S1x1024x256 .bf16) (x3 : Vec F S1x1024x256 .bf16) :
    sout0_A_1 c i arg2 harg2 arg3 harg3 arg4 harg4 arg5 harg5 arg6 harg6 arg7 harg7 arg8 harg8 arg9 harg9 hc0 hc1 x0 x1 x2 x3 = stepL x0 x1 x2 x3 m0 l0 := by
  -- As above: the covering store's payload over the reset maximum and the reset denominator read back.
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S2048x1) hz2]
  simp only [View.readAt_eq_ld, harg2.read_unread, harg3.read_unread, harg4.read_unread, harg5.read_unread,
    View.ld_unit_zero (S := S1x2048x256) hz3, View.ld_unit_zero (S := S1x1024x256) hz3, View.readCov_unit_zero (S := S2048x1) _ hz2]
  rfl

theorem sout_A_2 (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x2048x256 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x256 .f32) (harg9 : arg9.IsWhole) (hc0 : cond0_0 i) (hc1 : ¬cond0_1 i) (x0 : Vec F S1x2048x256 .bf16) (x1 : Vec F S1x2048x256 .bf16) (x2 : Vec F S1x1024x256 .bf16) (x3 : Vec F S1x1024x256 .bf16) :
    sout0_A_2 c i arg2 harg2 arg3 harg3 arg4 harg4 arg5 harg5 arg6 harg6 arg7 harg7 arg8 harg8 arg9 harg9 hc0 hc1 x0 x1 x2 x3 = stepAcc x0 x1 x2 x3 m0 acc0 := by
  -- As above: the covering store's payload over the reset maximum and the reset weighted sum read back.
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S2048x256) hz2]
  simp only [View.readAt_eq_ld, harg2.read_unread, harg3.read_unread, harg4.read_unread, harg5.read_unread,
    View.ld_unit_zero (S := S1x2048x256) hz3, View.ld_unit_zero (S := S1x1024x256) hz3, View.readCov_unit_zero (S := S2048x1) _ hz2,
    View.readCov_unit_zero (S := S2048x256) _ hz2]
  rfl

theorem sout_B_0 (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x2048x256 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x256 .f32) (harg9 : arg9.IsWhole) (hc0 : ¬cond0_0 i) (hc1 : cond0_1 i) (x0 : Vec F S1x2048x256 .bf16) (x1 : Vec F S1x2048x256 .bf16) (x2 : Vec F S1x1024x256 .bf16) (x3 : Vec F S1x1024x256 .bf16) (xs0 : Vec F S2048x1 .f32) (xs1 : Vec F S2048x1 .f32) (xs2 : Vec F S2048x256 .f32) :
    sout0_B_0 c i arg2 harg2 arg3 harg3 arg4 harg4 arg5 harg5 arg6 harg6 arg7 harg7 arg8 harg8 arg9 harg9 hc0 hc1 x0 x1 x2 x3 xs0 xs1 xs2 = stepM x0 x1 x2 x3 xs0 := by
  -- One covering store: the buffer holds its payload, whose loads read the carried maximum and the input blocks whole.
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread,
    View.ld_unit_zero (S := S2048x1) hz2, View.ld_unit_zero (S := S1x2048x256) hz3, View.ld_unit_zero (S := S1x1024x256) hz3]
  rfl

theorem sout_B_1 (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x2048x256 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x256 .f32) (harg9 : arg9.IsWhole) (hc0 : ¬cond0_0 i) (hc1 : cond0_1 i) (x0 : Vec F S1x2048x256 .bf16) (x1 : Vec F S1x2048x256 .bf16) (x2 : Vec F S1x1024x256 .bf16) (x3 : Vec F S1x1024x256 .bf16) (xs0 : Vec F S2048x1 .f32) (xs1 : Vec F S2048x1 .f32) (xs2 : Vec F S2048x256 .f32) :
    sout0_B_1 c i arg2 harg2 arg3 harg3 arg4 harg4 arg5 harg5 arg6 harg6 arg7 harg7 arg8 harg8 arg9 harg9 hc0 hc1 x0 x1 x2 x3 xs0 xs1 xs2 = stepL x0 x1 x2 x3 xs0 xs1 := by
  -- One covering store: its payload over the carried maximum and the carried denominator.
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread, harg8.read_unread,
    View.ld_unit_zero (S := S2048x1) hz2, View.ld_unit_zero (S := S1x2048x256) hz3, View.ld_unit_zero (S := S1x1024x256) hz3]
  rfl

theorem sout_B_2 (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x2048x256 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x256 .f32) (harg9 : arg9.IsWhole) (hc0 : ¬cond0_0 i) (hc1 : cond0_1 i) (x0 : Vec F S1x2048x256 .bf16) (x1 : Vec F S1x2048x256 .bf16) (x2 : Vec F S1x1024x256 .bf16) (x3 : Vec F S1x1024x256 .bf16) (xs0 : Vec F S2048x1 .f32) (xs1 : Vec F S2048x1 .f32) (xs2 : Vec F S2048x256 .f32) :
    sout0_B_2 c i arg2 harg2 arg3 harg3 arg4 harg4 arg5 harg5 arg6 harg6 arg7 harg7 arg8 harg8 arg9 harg9 hc0 hc1 x0 x1 x2 x3 xs0 xs1 xs2 = stepAcc x0 x1 x2 x3 xs0 xs2 := by
  -- One covering store: its payload over the carried maximum and the carried weighted sum.
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread, harg9.read_unread,
    View.ld_unit_zero (S := S2048x1) hz2, View.ld_unit_zero (S := S2048x256) hz2, View.ld_unit_zero (S := S1x2048x256) hz3, View.ld_unit_zero (S := S1x1024x256) hz3]
  rfl

theorem out_B_4 (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x2048x256 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x256 .f32) (harg9 : arg9.IsWhole) (hc0 : ¬cond0_0 i) (hc1 : cond0_1 i) (x0 : Vec F S1x2048x256 .bf16) (x1 : Vec F S1x2048x256 .bf16) (x2 : Vec F S1x1024x256 .bf16) (x3 : Vec F S1x1024x256 .bf16) (xs0 : Vec F S2048x1 .f32) (xs1 : Vec F S2048x1 .f32) (xs2 : Vec F S2048x256 .f32) :
    out0_B_4 c i arg2 harg2 arg3 harg3 arg4 harg4 arg5 harg5 arg6 harg6 arg7 harg7 arg8 harg8 arg9 harg9 hc0 hc1 x0 x1 x2 x3 xs0 xs1 xs2
      = k0_pay4 (stepAcc x0 x1 x2 x3 xs0 xs2) (stepL x0 x1 x2 x3 xs0 xs1) := by
  -- One covering store into the output block: its payload is the quotient of what the two loads before it read, and
  -- each of those reads back the one covering store this same point made into its buffer: the new weighted sum and
  -- the new denominator.
  unfold out0_B_4
  rw [View.read_writes_eq_canon _ _ _ (cover0_B_4 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz3]
  simp only [View.readAt_eq_ld, harg2.read_unread, harg3.read_unread, harg4.read_unread, harg5.read_unread, harg7.read_unread, harg8.read_unread, harg9.read_unread,
    View.ld_unit_zero (S := S2048x1) hz2, View.ld_unit_zero (S := S2048x256) hz2, View.ld_unit_zero (S := S1x2048x256) hz3, View.ld_unit_zero (S := S1x1024x256) hz3,
    View.readCov_unit_zero (S := S2048x1) _ hz2, View.readCov_unit_zero (S := S2048x256) _ hz2]
  rfl

end Cert.Attn.Pieces

end
-- ==== Proof.KernelHost.lean ====
/-
  What the four staged arrays hold when the region is entered, for real argument arrays.
-/
import proofs.«407937_j88081189306550_3_alg».proof.Proof.Spec
import proofs.«407937_j88081189306550_3_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws
import proofs.«407937_j88081189306550_3_alg».proof.Proof.LibSoftmax

noncomputable section

namespace Cert.Attn.KHost

open Idealize.ShloMosaic Idealize.ShloMosaic.TcCoe Idealize.SL.Sem Cert.KernelIdeal Cert.KernelIdeal.Gen Cert.Attn

variable (m : (ℓ : Loc nD τ sig) → Buf (Elt Ideal) ℓ)

/-! ## The four arrays as terms over the argument arrays -/

abbrev C3f : Type := FVec Ideal S16x2048x256 .f32
abbrev C3b : Type := FVec Ideal S16x2048x256 .bf16
abbrev C2f : Type := FVec Ideal S256x256 .f32
abbrev C2b : Type := FVec Ideal S256x256 .bf16
abbrev CFf : Type := FVec Ideal S32768x256 .f32
abbrev CFb : Type := FVec Ideal S32768x256 .bf16
abbrev DD : DotDims S32768x256 S256x256 S32768x256 := dot_S32768x256_S256x256_S32768x256_1_0_0_1_n_n

/-- The leading half of a [16, 2048, 256] array: the array narrowed. -/
def hi3 (X : C3f) : C3b := truncf .bf16 X bitsLt_bf16_f32
/-- Its trailing half: the array minus its widened leading half, narrowed. -/
def lo3 (X : C3f) : C3b := truncf .bf16 (subf X (extf .f32 (truncf .bf16 X bitsLt_bf16_f32 : C3b) bitsLt_bf16_f32 : C3f) : C3f) bitsLt_bf16_f32
/-- The same two halves of a [256, 256] array. -/
def hi2 (Y : C2f) : C2b := truncf .bf16 Y bitsLt_bf16_f32
def lo2 (Y : C2f) : C2b := truncf .bf16 (subf Y (extf .f32 (truncf .bf16 Y bitsLt_bf16_f32 : C2b) bitsLt_bf16_f32 : C2f) : C2f) bitsLt_bf16_f32
/-- A [16, 2048, 256] array with its two leading axes merged. -/
def flat (Y : C3b) : CFb := shapeCast S32768x256 Y shapeCasts_S16x2048x256_S32768x256
/-- The host product of a [32768, 256] array by a [256, 256] one. -/
def dotH (A : CFb) (B : C2b) : CFf := Host.dotGeneral DD none A B
/-- The three-term product of the halves, on the merged rows … -/
def xw (X : C3f) (Y : C2f) : CFf :=
  addf (addf (dotH (flat (hi3 X)) (hi2 Y)) (dotH (flat (hi3 X)) (lo2 Y)) : CFf) (dotH (flat (lo3 X)) (hi2 Y))
/-- … and with the rows split again. -/
def xw3 (X : C3f) (Y : C2f) : C3f := shapeCast S16x2048x256 (xw X Y) shapeCasts_S32768x256_S16x2048x256

/-! ## The terms read at an index -/

theorem hi3_apply (X : C3f) (i : S16x2048x256.Idx) : hi3 X i = X i := rfl
theorem lo3_apply (X : C3f) (i : S16x2048x256.Idx) : lo3 X i = X i - X i := rfl
theorem hi2_apply (Y : C2f) (i : S256x256.Idx) : hi2 Y i = Y i := rfl
theorem lo2_apply (Y : C2f) (i : S256x256.Idx) : lo2 Y i = Y i - Y i := rfl

/-- Row `2048 b + r` of the merged array is row `r` of batch `b`. -/
theorem flat_apply (Y : C3b) (b : Fin 16) (r : Fin 2048) (k : Fin 256) :
    flat Y (ValueIdx.ix2 (⟨2048 * b.val + r.val, by omega⟩ : Fin 32768) k) = Y (ValueIdx.ix3 b r k) := by
  unfold flat
  exact shapeCast_apply Y _ _ _ (by
    rw [Shape.rowMajor_val_three, Shape.rowMajor_val_two]
    show (b.val * 2048 + r.val) * 256 + k.val = (2048 * b.val + r.val) * 256 + k.val
    omega)

theorem dot_lhs0 (i : S32768x256.Idx) (q : DD.contr.Idx) : (DD.lhsIdx i q 0).val = (i 0).val := by
  unfold DotDims.lhsIdx
  rw [dif_neg (show ¬(0 : Fin S32768x256.rank) ∈ DD.lhsBatch by decide), dif_pos (show (0 : Fin S32768x256.rank) ∈ DD.lhsNonContracting by decide)]
  rfl
theorem dot_lhs1 (i : S32768x256.Idx) (q : DD.contr.Idx) : (DD.lhsIdx i q 1).val = (q ⟨0, by decide⟩).val :=
  DD.lhsIdx_val_of_single rfl i q
theorem dot_rhs0 (i : S32768x256.Idx) (q : DD.contr.Idx) : (DD.rhsIdx i q 0).val = (q ⟨0, by decide⟩).val :=
  DD.rhsIdx_val_of_single rfl i q
theorem dot_rhs1 (i : S32768x256.Idx) (q : DD.contr.Idx) : (DD.rhsIdx i q 1).val = (i 1).val := by
  unfold DotDims.rhsIdx
  rw [dif_neg (show ¬(1 : Fin S256x256.rank) ∈ DD.rhsBatch by decide), dif_pos (show (1 : Fin S256x256.rank) ∈ DD.rhsNonContracting by decide)]
  rfl

/-- The host product at an entry: the sum over the contracted axis, for any operands. -/
theorem dotH_apply (A : CFb) (B : C2b) (R : Fin 32768) (e : Fin 256) :
    dotH A B (ValueIdx.ix2 R e) = ∑ k : Fin 256, A (ValueIdx.ix2 R k) * B (ValueIdx.ix2 k e) := by
  unfold dotH
  simp only [Host.dotGeneral]
  rw [Ideal.dotGeneral_apply, ← Equiv.sum_comp (ValueIdx.contrEquiv1 DD 256 rfl rfl).symm]
  refine Finset.sum_congr rfl fun k _ => ?_
  have hk := ValueIdx.contrEquiv1_symm_val DD 256 rfl rfl k
  have el : DD.lhsIdx (ValueIdx.ix2 R e) ((ValueIdx.contrEquiv1 DD 256 rfl rfl).symm k) = ValueIdx.ix2 R k := funext fun a => Fin.ext (by
    match a with
    | ⟨0, _⟩ => exact dot_lhs0 _ _
    | ⟨1, _⟩ => exact (dot_lhs1 _ _).trans hk)
  have er : DD.rhsIdx (ValueIdx.ix2 R e) ((ValueIdx.contrEquiv1 DD 256 rfl rfl).symm k) = ValueIdx.ix2 k e := funext fun a => Fin.ext (by
    match a with
    | ⟨0, _⟩ => exact (dot_rhs0 _ _).trans hk
    | ⟨1, _⟩ => exact dot_rhs1 _ _)
  rw [el, er]

/-- The three-term product at an entry of row `2048 b + r`, for any operands. -/
theorem xw_apply (X : C3f) (Y : C2f) (b : Fin 16) (r : Fin 2048) (e : Fin 256) :
    xw X Y (ValueIdx.ix2 (⟨2048 * b.val + r.val, by omega⟩ : Fin 32768) e)
      = (∑ k : Fin 256, X (ValueIdx.ix3 b r k) * Y (ValueIdx.ix2 k e)
          + ∑ k : Fin 256, X (ValueIdx.ix3 b r k) * (Y (ValueIdx.ix2 k e) - Y (ValueIdx.ix2 k e)))
        + ∑ k : Fin 256, (X (ValueIdx.ix3 b r k) - X (ValueIdx.ix3 b r k)) * Y (ValueIdx.ix2 k e) := by
  unfold xw
  refine (ValueIdx.addf_apply _ _ _).trans ?_
  refine congrArg₂ (· + ·) ((ValueIdx.addf_apply _ _ _).trans ?_) ?_
  · rw [dotH_apply, dotH_apply]
    simp only [flat_apply, hi3_apply, hi2_apply, lo2_apply]
  · rw [dotH_apply]
    simp only [flat_apply, lo3_apply, hi2_apply]

theorem xw3_apply (X : C3f) (Y : C2f) (b : Fin 16) (r : Fin 2048) (e : Fin 256) :
    xw3 X Y (ValueIdx.ix3 b r e) = xw X Y (ValueIdx.ix2 (⟨2048 * b.val + r.val, by omega⟩ : Fin 32768) e) := by
  unfold xw3
  exact shapeCast_apply _ _ _ _ (by
    rw [Shape.rowMajor_val_two, Shape.rowMajor_val_three]
    show (2048 * b.val + r.val) * 256 + e.val = (b.val * 2048 + r.val) * 256 + e.val
    omega)

/-! ## Real operands -/

theorem coe_sub_self (t : ℝ) : (t : EReal) - (t : EReal) = 0 := by
  rw [← EReal.coe_sub, sub_self, EReal.coe_zero]

/-- For real operands the two correction sums vanish and the product is the real projection. -/
theorem xw3_real (x : Fin 16 → Fin 2048 → Fin 256 → ℝ) (W : Fin 256 → Fin 256 → ℝ) (b : Fin 16) (r : Fin 2048) (e : Fin 256) :
    xw3 (up3 x) (up2 W) (ValueIdx.ix3 b r e) = ((proj x W b r e : ℝ) : EReal) := by
  rw [xw3_apply, xw_apply]
  simp only [up3_ix3, up2_ix2, coe_sub_self, mul_zero, zero_mul, Finset.sum_const_zero, add_zero]
  unfold proj
  rw [coe_sum]
  simp only [EReal.coe_mul]

/-- The staged leading half of the projected query, as the operations' term over the argument arrays. -/
theorem term_v16 (c : Dev nD) :
    (V m c main_v16 : S16x2048x256.Idx → EReal) = hi3 (xw3 (m ((c : Thread nD τ).loc main_arg0)) (m ((c : Thread nD τ).loc main_arg2))) := by
  dsimp only [Gen.V, Gen.hostOps0]; after_results; rfl

/-- Its trailing half. -/
theorem term_v19 (c : Dev nD) :
    (V m c main_v19 : S16x2048x256.Idx → EReal) = lo3 (xw3 (m ((c : Thread nD τ).loc main_arg0)) (m ((c : Thread nD τ).loc main_arg2))) := by
  dsimp only [Gen.V, Gen.hostOps0]; after_results; rfl

/-- The leading half of the key array. -/
theorem term_v20 (c : Dev nD) :
    (V m c main_v20 : S16x2048x256.Idx → EReal) = hi3 (m ((c : Thread nD τ).loc main_arg1)) := by
  dsimp only [Gen.V, Gen.hostOps0]; after_results; rfl

/-- Its trailing half. -/
theorem term_v23 (c : Dev nD) :
    (V m c main_v23 : S16x2048x256.Idx → EReal) = lo3 (m ((c : Thread nD τ).loc main_arg1)) := by
  dsimp only [Gen.V, Gen.hostOps0]; after_results; rfl

theorem V_q (c : Dev nD) (x : Fin 16 → Fin 2048 → Fin 256 → ℝ) (W : Fin 256 → Fin 256 → ℝ)
    (hx : m ((c : Thread nD τ).loc main_arg0) = up3 x) (hW : m ((c : Thread nD τ).loc main_arg2) = up2 W) :
    (V m c main_v16 : S16x2048x256.Idx → EReal) = up3 (proj x W) := by
  -- the halves of a real array are the array and zero, so of the three products only the first is left: a sum of real products
  rw [term_v16 m c, hx, hW]
  funext i
  obtain ⟨b, r, e, rfl⟩ : ∃ b r e, i = ValueIdx.ix3 b r e := ⟨i 0, i 1, i 2, ValueIdx.eq_ix3 i⟩
  exact ((hi3_apply _ _).trans (xw3_real x W b r e)).trans (up3_ix3 _ b r e).symm

theorem V_ql (c : Dev nD) (x : Fin 16 → Fin 2048 → Fin 256 → ℝ) (W : Fin 256 → Fin 256 → ℝ)
    (hx : m ((c : Thread nD τ).loc main_arg0) = up3 x) (hW : m ((c : Thread nD τ).loc main_arg2) = up2 W) :
    (V m c main_v19 : S16x2048x256.Idx → EReal) = fun _ => (0 : EReal) := by
  -- the projected query is real, and a real number minus itself is zero
  rw [term_v19 m c, hx, hW]
  funext i
  obtain ⟨b, r, e, rfl⟩ : ∃ b r e, i = ValueIdx.ix3 b r e := ⟨i 0, i 1, i 2, ValueIdx.eq_ix3 i⟩
  refine (lo3_apply _ _).trans ?_
  rw [xw3_real]
  exact coe_sub_self _

theorem V_k (c : Dev nD) (a : Fin 16 → Fin 2048 → Fin 256 → ℝ)
    (ha : m ((c : Thread nD τ).loc main_arg1) = up3 a) :
    (V m c main_v20 : S16x2048x256.Idx → EReal) = up3 a := by
  -- the leading half of an array is the array
  rw [term_v20 m c, ha]
  funext i
  exact hi3_apply _ _

theorem V_kl (c : Dev nD) (a : Fin 16 → Fin 2048 → Fin 256 → ℝ)
    (ha : m ((c : Thread nD τ).loc main_arg1) = up3 a) :
    (V m c main_v23 : S16x2048x256.Idx → EReal) = fun _ => (0 : EReal) := by
  -- a real number minus itself is zero
  rw [term_v23 m c, ha]
  funext i
  exact (lo3_apply _ _).trans (coe_sub_self _)

end Cert.Attn.KHost

end
-- ==== Proof.KernelValue.lean ====
/-
  What the kernel's result array holds after the run, for real argument arrays: the attended values.

  The grid is 16 batches by 2 key tiles, in that order: point t works on batch t / 2 and key tile t % 2. Its input blocks
  are the batch's projected queries (the same at both tiles) and the tile's 1024 key rows, each with a zero low-order
  companion. The first tile resets the three carried buffers and updates them; the second updates them again and stores
  the quotient of the weighted sum by the denominator, which the pipeline writes back as the batch's block of the result.
-/
import proofs.«407937_j88081189306550_3_alg».proof.Proof.Spec
import proofs.«407937_j88081189306550_3_alg».proof.Proof.LibSoftmax
import proofs.«407937_j88081189306550_3_alg».proof.Proof.BlockReal
import proofs.«407937_j88081189306550_3_alg».proof.Proof.Pieces
import proofs.«407937_j88081189306550_3_alg».proof.Proof.KernelHost
import proofs.«407937_j88081189306550_3_alg».proof.Proof.Gen.KernelIdeal.Value

set_option maxRecDepth 16384

noncomputable section

open scoped BigOperators

namespace Cert.Attn.KValue

open Idealize.ShloMosaic Idealize.ShloMosaic.TcCoe Idealize.SL.Sem Idealize.ShloMosaic.ValueIdx
open Idealize.ShloMosaic.Pipeline (Dat)
open Cert.KernelIdeal Cert.KernelIdeal.Gen Cert.Attn Cert.Attn.Steps Cert.Attn.Block

variable (m : (ℓ : Loc nD τ sig) → Buf (Elt Ideal) ℓ) (ρ : Dev nD → PrngReg)
variable (x a : Fin 16 → Fin 2048 → Fin 256 → ℝ) (W : Fin 256 → Fin 256 → ℝ)

/-! ## The grid: batch and key tile of a point, and the windows' index maps -/

/-- The batch a point works on. -/
def batch (t : Fin cfg0.N) : Fin 16 := ⟨t.val / 2, by have h := t.isLt; have hN : cfg0.N = 32 := N_0; omega⟩

/-- Key row `j` of the point's tile, as a row of the batch's 2048. -/
def keyRow (t : Fin cfg0.N) (j : Fin 1024) : Fin 2048 := ⟨1024 * (t.val % 2) + j.val, by have := j.isLt; omega⟩

theorem idx_q : ∀ t : Fin cfg0.N, win0_0.index t 0 = t.val / 2 ∧ win0_0.index t 1 = 0 ∧ win0_0.index t 2 = 0 :=
  (by decide +kernel : ∀ t : Fin grid0.N, win0_0.index t 0 = t.val / 2 ∧ win0_0.index t 1 = 0 ∧ win0_0.index t 2 = 0)
theorem idx_ql : ∀ t : Fin cfg0.N, win0_1.index t 0 = t.val / 2 ∧ win0_1.index t 1 = 0 ∧ win0_1.index t 2 = 0 :=
  (by decide +kernel : ∀ t : Fin grid0.N, win0_1.index t 0 = t.val / 2 ∧ win0_1.index t 1 = 0 ∧ win0_1.index t 2 = 0)
theorem idx_k : ∀ t : Fin cfg0.N, win0_2.index t 0 = t.val / 2 ∧ win0_2.index t 1 = t.val % 2 ∧ win0_2.index t 2 = 0 :=
  (by decide +kernel : ∀ t : Fin grid0.N, win0_2.index t 0 = t.val / 2 ∧ win0_2.index t 1 = t.val % 2 ∧ win0_2.index t 2 = 0)
theorem idx_kl : ∀ t : Fin cfg0.N, win0_3.index t 0 = t.val / 2 ∧ win0_3.index t 1 = t.val % 2 ∧ win0_3.index t 2 = 0 :=
  (by decide +kernel : ∀ t : Fin grid0.N, win0_3.index t 0 = t.val / 2 ∧ win0_3.index t 1 = t.val % 2 ∧ win0_3.index t 2 = 0)
theorem idx_o : ∀ t : Fin cfg0.N, win0_4.index t 0 = t.val / 2 ∧ win0_4.index t 1 = 0 ∧ win0_4.index t 2 = 0 :=
  (by decide +kernel : ∀ t : Fin grid0.N, win0_4.index t 0 = t.val / 2 ∧ win0_4.index t 1 = 0 ∧ win0_4.index t 2 = 0)

/-! ## The point's input blocks, as real blocks -/

/-- The point's four input blocks, named at their literal types. -/
abbrev bq (c : Dev nD) (t : Fin cfg0.N) : Vec Ideal S1x2048x256 .bf16 := iblk m c 0 t
abbrev bql (c : Dev nD) (t : Fin cfg0.N) : Vec Ideal S1x2048x256 .bf16 := iblk m c 1 t
abbrev bk (c : Dev nD) (t : Fin cfg0.N) : Vec Ideal S1x1024x256 .bf16 := iblk m c 2 t
abbrev bkl (c : Dev nD) (t : Fin cfg0.N) : Vec Ideal S1x1024x256 .bf16 := iblk m c 3 t

section Blocks
variable (c : Dev nD)

/-- The query block of a point is its batch's projected queries. -/
theorem bq_eq (hx : m ((c : Thread nD τ).loc main_arg0) = up3 x) (hW : m ((c : Thread nD τ).loc main_arg2) = up2 W) (t : Fin cfg0.N) : bq m c t = upQ (fun r e => proj x W (batch t) r e) := by
  funext y
  show ((cfg0.win 0).blk t).view.read (Elt Ideal) (V m c (Pipeline.arrRef spec0 0)) y = _
  rw [View.read_apply]
  show (V m c main_v16 : S16x2048x256.Idx → EReal) _ = _
  rw [KHost.V_q m c x W hx hW]
  have h0 : (y 0).val < 1 := (y 0).isLt
  have e0 : win0_0.index t 0 * 1 + 1 * (y 0).val = (batch t).val := by
    show win0_0.index t 0 * 1 + 1 * (y 0).val = t.val / 2
    rw [(idx_q t).1]; omega
  have e1 : win0_0.index t 1 * 2048 + 1 * (y 1).val = (y 1).val := by rw [(idx_q t).2.1]; omega
  have e2 : win0_0.index t 2 * 256 + 1 * (y 2).val = (y 2).val := by rw [(idx_q t).2.2]; omega
  exact congrArg (fun z : ℝ => (z : EReal)) (congr (congr (congrArg (proj x W) (Fin.ext e0)) (Fin.ext e1)) (Fin.ext e2))

end Blocks

section Blocks2
variable (c : Dev nD)

/-- The query block's low-order companion is zero. -/
theorem bql_eq (hx : m ((c : Thread nD τ).loc main_arg0) = up3 x) (hW : m ((c : Thread nD τ).loc main_arg2) = up2 W) (t : Fin cfg0.N) : bql m c t = zQ := by
  funext y
  show ((cfg0.win 1).blk t).view.read (Elt Ideal) (V m c (Pipeline.arrRef spec0 1)) y = _
  rw [View.read_apply]
  show (V m c main_v19 : S16x2048x256.Idx → EReal) _ = _
  rw [KHost.V_ql m c x W hx hW]

/-- The key block of a point is its tile's 1024 key rows of its batch. -/
theorem bk_eq (ha : m ((c : Thread nD τ).loc main_arg1) = up3 a) (t : Fin cfg0.N) : bk m c t = upK (fun j e => a (batch t) (keyRow t j) e) := by
  funext y
  show ((cfg0.win 2).blk t).view.read (Elt Ideal) (V m c (Pipeline.arrRef spec0 2)) y = _
  rw [View.read_apply]
  show (V m c main_v20 : S16x2048x256.Idx → EReal) _ = _
  rw [KHost.V_k m c a ha]
  have h0 : (y 0).val < 1 := (y 0).isLt
  have e0 : win0_2.index t 0 * 1 + 1 * (y 0).val = (batch t).val := by
    show win0_2.index t 0 * 1 + 1 * (y 0).val = t.val / 2
    rw [(idx_k t).1]; omega
  have e1 : win0_2.index t 1 * 1024 + 1 * (y 1).val = (keyRow t ⟨(y 1).val, (y 1).isLt⟩).val := by
    show win0_2.index t 1 * 1024 + 1 * (y 1).val = 1024 * (t.val % 2) + (y 1).val
    rw [(idx_k t).2.1]; omega
  have e2 : win0_2.index t 2 * 256 + 1 * (y 2).val = (y 2).val := by rw [(idx_k t).2.2]; omega
  exact congrArg (fun z : ℝ => (z : EReal)) (congr (congr (congrArg a (Fin.ext e0)) (Fin.ext e1)) (Fin.ext e2))

/-- The key block's low-order companion is zero. -/
theorem bkl_eq (ha : m ((c : Thread nD τ).loc main_arg1) = up3 a) (t : Fin cfg0.N) : bkl m c t = zK := by
  funext y
  show ((cfg0.win 3).blk t).view.read (Elt Ideal) (V m c (Pipeline.arrRef spec0 3)) y = _
  rw [View.read_apply]
  show (V m c main_v23 : S16x2048x256.Idx → EReal) _ = _
  rw [KHost.V_kl m c a ha]

end Blocks2

/-! ## What the carried buffers and the output block hold after a point -/

section Points
variable (c : Dev nD)

/-- After the first tile of a batch (an even point) the three carried buffers hold one update from the reset values. -/
theorem after_even (t : Fin cfg0.N) (h0 : t.val % 2 = 0) :
    (outsAt0 m c t.val t.isLt).2.1 = stepM (bq m c t) (bql m c t) (bk m c t) (bkl m c t) m0
    ∧ (outsAt0 m c t.val t.isLt).2.2.1 = stepL (bq m c t) (bql m c t) (bk m c t) (bkl m c t) m0 l0
    ∧ (outsAt0 m c t.val t.isLt).2.2.2 = stepAcc (bq m c t) (bql m c t) (bk m c t) (bkl m c t) m0 acc0 := by
  have h1 : ¬t.val % 2 = 1 := by omega
  rw [outsAt0_A m c t h0 h1]
  dsimp only
  exact ⟨Pieces.sout_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    Pieces.sout_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    Pieces.sout_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)⟩

/-- After the second tile (an odd point) the output block holds the quotient of the twice-updated weighted sum by the
    twice-updated denominator, over what the point before left. -/
theorem out_odd (t : Fin cfg0.N) (h1 : t.val % 2 = 1) :
    (outsAt0 m c t.val t.isLt).1
      = k0_pay4 (stepAcc (bq m c t) (bql m c t) (bk m c t) (bkl m c t)
            (outsAt0 m c (t.val - 1) (Nat.lt_of_le_of_lt (Nat.sub_le _ _) t.isLt)).2.1
            (outsAt0 m c (t.val - 1) (Nat.lt_of_le_of_lt (Nat.sub_le _ _) t.isLt)).2.2.2)
          (stepL (bq m c t) (bql m c t) (bk m c t) (bkl m c t)
            (outsAt0 m c (t.val - 1) (Nat.lt_of_le_of_lt (Nat.sub_le _ _) t.isLt)).2.1
            (outsAt0 m c (t.val - 1) (Nat.lt_of_le_of_lt (Nat.sub_le _ _) t.isLt)).2.2.1) := by
  have h0 : ¬t.val % 2 = 0 := by omega
  rw [outsAt0_B m c t h0 h1]
  dsimp only
  exact Pieces.out_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2.1
    (outsAt0 m c (t.val - 1) (Nat.lt_of_le_of_lt (Nat.sub_le _ _) t.isLt)).2.2.1
    (outsAt0 m c (t.val - 1) (Nat.lt_of_le_of_lt (Nat.sub_le _ _) t.isLt)).2.2.2

end Points

/-! ## The real algebra of one batch -/

/-- A sum over the 2048 key rows is the sum over the first tile's plus the sum over the second tile's. -/
theorem sum_halves (f : Fin 2048 → ℝ) :
    ∑ j : Fin 2048, f j
      = (∑ j : Fin 1024, f ⟨j.val, by have := j.isLt; omega⟩) + ∑ j : Fin 1024, f ⟨1024 + j.val, by have := j.isLt; omega⟩ :=
  Fin.sum_univ_add (M := ℝ) (a := 1024) (b := 1024) (fun i : Fin (1024 + 1024) => f ⟨i.val, i.isLt⟩)

/-- The denominator after a tile is positive when the one before is not negative. -/
theorem lnew_pos (M L : ℝ) (s : Fin 1024 → ℝ) (hL : 0 ≤ L) : 0 < lnew M L s := by
  unfold lnew
  have h1 : 0 ≤ Real.exp (M - mnew M s) * L := mul_nonneg (Real.exp_pos _).le hL
  have h2 : 0 < ∑ j : Fin 1024, Real.exp (s j - mnew M s) :=
    Finset.sum_pos (fun j _ => Real.exp_pos _) ⟨⟨0, by decide⟩, Finset.mem_univ _⟩
  linarith

/-- Two tiles of the recurrence from the reset values: the quotient is the shift-free softmax over both tiles. -/
theorem two_tiles (c₀ : ℝ) (s0 s1 k0 k1 : Fin 1024 → ℝ) :
    cnew (mnew c₀ s0) (cnew c₀ 0 s0 k0) s1 k1 / lnew (mnew c₀ s0) (lnew c₀ 0 s0) s1
      = ((∑ j, Real.exp (s0 j) * k0 j) + ∑ j, Real.exp (s1 j) * k1 j) / ((∑ j, Real.exp (s0 j)) + ∑ j, Real.exp (s1 j)) := by
  unfold cnew lnew
  simp only [mul_zero, zero_add]
  exact softmax_two_tiles s0 k0 s1 k1 (mnew c₀ s0) (mnew (mnew c₀ s0) s1)

section Value
variable (c : Dev nD)

/-- AFTER THE SECOND TILE of a batch the output block holds the batch's attended values. -/
theorem out_odd_real (hx : m ((c : Thread nD τ).loc main_arg0) = up3 x) (ha : m ((c : Thread nD τ).loc main_arg1) = up3 a) (hW : m ((c : Thread nD τ).loc main_arg2) = up2 W) (t : Fin cfg0.N) (h1 : t.val % 2 = 1) :
    (outsAt0 m c t.val t.isLt).1 = upQ (fun r d => attn x a W (batch t) r d) := by
  have hlt : t.val - 1 < cfg0.N := Nat.lt_of_le_of_lt (Nat.sub_le _ _) t.isLt
  have h0' : (⟨t.val - 1, hlt⟩ : Fin cfg0.N).val % 2 = 0 := by show (t.val - 1) % 2 = 0; omega
  obtain ⟨e1, e2, e3⟩ := after_even m c ⟨t.val - 1, hlt⟩ h0'
  have hb : batch ⟨t.val - 1, hlt⟩ = batch t := Fin.ext (by show (t.val - 1) / 2 = t.val / 2; omega)
  have hk0 : ∀ j : Fin 1024, keyRow ⟨t.val - 1, hlt⟩ j = ⟨j.val, by have := j.isLt; omega⟩ := fun j =>
    Fin.ext (by show 1024 * ((t.val - 1) % 2) + j.val = j.val; have : (t.val - 1) % 2 = 0 := h0'; rw [this]; omega)
  have hk1 : ∀ j : Fin 1024, keyRow t j = ⟨1024 + j.val, by have := j.isLt; omega⟩ := fun j =>
    Fin.ext (by show 1024 * (t.val % 2) + j.val = 1024 + j.val; rw [h1])
  obtain ⟨c₀, hm0⟩ := m0_eq
  rw [out_odd m c t h1]
  change k0_pay4 (stepAcc (bq m c t) (bql m c t) (bk m c t) (bkl m c t) (outsAt0 m c (⟨t.val - 1, hlt⟩ : Fin cfg0.N).val hlt).2.1
      (outsAt0 m c (⟨t.val - 1, hlt⟩ : Fin cfg0.N).val hlt).2.2.2)
    (stepL (bq m c t) (bql m c t) (bk m c t) (bkl m c t) (outsAt0 m c (⟨t.val - 1, hlt⟩ : Fin cfg0.N).val hlt).2.1
      (outsAt0 m c (⟨t.val - 1, hlt⟩ : Fin cfg0.N).val hlt).2.2.1) = _
  rw [e1, e2, e3, bq_eq m x W c hx hW t, bql_eq m x W c hx hW t, bk_eq m a c ha t, bkl_eq m a c ha t,
    bq_eq m x W c hx hW ⟨t.val - 1, hlt⟩, bql_eq m x W c hx hW ⟨t.val - 1, hlt⟩, bk_eq m a c ha ⟨t.val - 1, hlt⟩,
    bkl_eq m a c ha ⟨t.val - 1, hlt⟩, hm0, l0_eq, acc0_eq, stepM_eq, stepL_eq, stepAcc_eq, stepL_eq, stepAcc_eq]
  rw [pay4_eq _ _ (fun r => (lnew_pos _ _ _ (lnew_pos _ _ _ le_rfl).le).ne')]
  refine congrArg upQ (funext fun r => funext fun d => ?_)
  rw [two_tiles, hb]
  unfold attn
  rw [sum_halves (fun j => Real.exp (score x a W (batch t) r j) * a (batch t) j d),
    sum_halves (fun j => Real.exp (score x a W (batch t) r j))]
  simp only [hk0, hk1]
  rfl

end Value

/-! ## From the batches' blocks to the result array -/

section Final
variable (c : Dev nD)

/-- The attended values as contents of the result array. -/
abbrev result : Buf (Elt Ideal) ((c : Thread nD τ).loc main_v24) := up3 (attn x a W)

/-- What a write-back writes is its batch's block of the attended values. -/
theorem flushed_eq (hx : m ((c : Thread nD τ).loc main_arg0) = up3 x) (ha : m ((c : Thread nD τ).loc main_arg1) = up3 a) (hW : m ((c : Thread nD τ).loc main_arg2) = up2 W) (t : Fin cfg0.N) (hf : (cfg0.win 4).flush t = true) :
    (dats m 0 c).flushed 4 t = ((cfg0.win 4).blk t).view.read (Elt Ideal) (result x a W c) := by
  have h1 : t.val % 2 = 1 := (flush0_4 t).mp hf
  rw [Value.flushed4, out_odd_real m x a W c hx ha hW t h1]
  funext y
  rw [View.read_apply]
  have h0 : (y 0).val < 1 := (y 0).isLt
  have e0 : (batch t).val = win0_4.index t 0 * 1 + 1 * (y 0).val := by
    show t.val / 2 = win0_4.index t 0 * 1 + 1 * (y 0).val
    rw [(idx_o t).1]; omega
  have e1 : (y 1).val = win0_4.index t 1 * 2048 + 1 * (y 1).val := by rw [(idx_o t).2.1]; omega
  have e2 : (y 2).val = win0_4.index t 2 * 256 + 1 * (y 2).val := by rw [(idx_o t).2.2]; omega
  exact congrArg (fun z : ℝ => (z : EReal)) (congr (congr (congrArg (attn x a W) (Fin.ext e0)) (Fin.ext e1)) (Fin.ext e2))

/-- Every entry of the result array is in the block the second tile of its batch writes back. -/
theorem cover (i : S16x2048x256.Idx) :
    ∃ t : Fin cfg0.N, (cfg0.win 4).flush t = true ∧ i ∈ ((cfg0.win 4).blk t).view.set := by
  have hb : (i 0).val < 16 := (i 0).isLt
  have hr : (i 1).val < 2048 := (i 1).isLt
  have hd : (i 2).val < 256 := (i 2).isLt
  have hN : 2 * (i 0).val + 1 < cfg0.N := by rw [show cfg0.N = 32 from N_0]; omega
  refine ⟨⟨2 * (i 0).val + 1, hN⟩, (flush0_4 _).mpr (by show (2 * (i 0).val + 1) % 2 = 1; omega), ?_⟩
  show i ∈ ((View.whole main_v24).slice (win0_4.rect ⟨2 * (i 0).val + 1, hN⟩)).set
  rw [View.set_slice_whole, Rect.mem_set_unit]
  have hi := idx_o ⟨2 * (i 0).val + 1, hN⟩
  intro a
  match a with
  | ⟨0, _⟩ =>
    show win0_4.index ⟨2 * (i 0).val + 1, hN⟩ 0 * 1 ≤ (i 0).val ∧ (i 0).val < win0_4.index ⟨2 * (i 0).val + 1, hN⟩ 0 * 1 + 1
    rw [hi.1]; show (2 * (i 0).val + 1) / 2 * 1 ≤ (i 0).val ∧ (i 0).val < (2 * (i 0).val + 1) / 2 * 1 + 1; omega
  | ⟨1, _⟩ =>
    show win0_4.index ⟨2 * (i 0).val + 1, hN⟩ 1 * 2048 ≤ (i 1).val ∧ (i 1).val < win0_4.index ⟨2 * (i 0).val + 1, hN⟩ 1 * 2048 + 2048
    rw [hi.2.1]; omega
  | ⟨2, _⟩ =>
    show win0_4.index ⟨2 * (i 0).val + 1, hN⟩ 2 * 256 ≤ (i 2).val ∧ (i 2).val < win0_4.index ⟨2 * (i 0).val + 1, hN⟩ 2 * 256 + 256
    rw [hi.2.2]; omega

/-- So the result array ends holding the attended values. -/
theorem final (hx : m ((c : Thread nD τ).loc main_arg0) = up3 x) (ha : m ((c : Thread nD τ).loc main_arg1) = up3 a) (hW : m ((c : Thread nD τ).loc main_arg2) = up2 W) : (dats m 0 c).arrAt 4 cfg0.N = result x a W c :=
  (dats m 0 c).arrAt_eq_of_cover 4 (result x a W c) (flushed_eq m x a W c hx ha hW) cover

end Final

/-- THE KERNEL'S RUN, READ: for real argument arrays (on every device), every weakly fair execution terminates with the
    result array at the attended values and the arguments unchanged. -/
theorem run (hx : ∀ c : Dev nD, m ((c : Thread nD τ).loc main_arg0) = up3 x)
    (ha : ∀ c : Dev nD, m ((c : Thread nD τ).loc main_arg1) = up3 a)
    (hW : ∀ c : Dev nD, m ((c : Thread nD τ).loc main_arg2) = up2 W) :
    θ_run defs (onTc (τ := τ) (main (F := Ideal))) ⟨m, fun _ => 0, ρ⟩ fun r => ∀ c : Dev nD,
      r.2.mem ((c : Thread nD τ).loc main_v24) = result x a W c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m x a W c (hx c) (ha c) (hW c)), (h c).2⟩)
    (Value.run_blocks m ρ)

end Cert.Attn.KValue

end
-- ==== Proof.RefAt.lean ====
/-
  The reference at an index, for real argument arrays: the shift-free softmax-weighted sum.

  The reference forms the scores S[b,r,j] = Σ_e (Σ_d x[b,r,d]·W[d,e])·a[b,j,e], shifts each row by M[b,r], the larger of
  minus infinity and the row's maximum, and returns Σ_j (exp(S[b,r,j] − M[b,r]) / Σ_k exp(S[b,r,k] − M[b,r]))·a[b,j,d].
  For real arguments every score is real, so the row maximum over 2048 of them is a real number, every shifted exponent is
  real, the normaliser is a positive real, and the whole value is the coercion of a real expression; over the reals that
  expression does not depend on the shift, and is the quotient (Σ_j exp(S_j)·a_j) / (Σ_j exp(S_j)).
-/
import proofs.«407937_j88081189306550_3_alg».proof.Proof.Spec
import proofs.«407937_j88081189306550_3_alg».proof.Proof.LibSoftmax
import proofs.«407937_j88081189306550_3_alg».proof.Proof.Gen.ReferenceIdeal.Read

noncomputable section

namespace Cert.Attn.Ref

open Idealize.ShloMosaic Cert.ReferenceIdeal Cert.Attn
open Cert.ReferenceIdeal.Gen
open scoped BigOperators

/-- The projected query, entry by entry: the first product x·W at (b, r, e) is the real sum Σ_d x[b,r,d]·W[d,e]. -/
private theorem v0_at (x : Fin 16 → Fin 2048 → Fin 256 → ℝ) (W : Fin 256 → Fin 256 → ℝ) (b : Fin 16) (r : Fin 2048) (e : Fin 256) :
    Read.val_main_v0 (F := Ideal) (up3 x) (up2 W) (ValueIdx.ix3 b r e) = ((proj x W b r e : ℝ) : EReal) := by
  rw [Read.val_main_v0_apply]
  unfold proj
  rw [coe_sum]
  refine Finset.sum_congr rfl fun k _ => ?_
  rw [EReal.coe_mul]

/-- The score of query row r against key row j is the real sum Σ_e proj[b,r,e]·a[b,j,e]. -/
private theorem v1_at (x a : Fin 16 → Fin 2048 → Fin 256 → ℝ) (W : Fin 256 → Fin 256 → ℝ) (b : Fin 16) (r j : Fin 2048) :
    Read.val_main_v1 (F := Ideal) (up3 x) (up3 a) (up2 W) (ValueIdx.ix3 b r j) = ((score x a W b r j : ℝ) : EReal) := by
  rw [Read.val_main_v1_apply]
  unfold score
  rw [coe_sum]
  refine Finset.sum_congr rfl fun k _ => ?_
  have e : Read.lidx_main_v1 (ValueIdx.ix3 b r j) k = ValueIdx.ix3 b r k :=
    funext fun c => Fin.ext (by match c with | ⟨0, _⟩ => rfl | ⟨1, _⟩ => rfl | ⟨2, _⟩ => rfl)
  rw [e, v0_at, EReal.coe_mul]

/-- Every score is a real number. -/
private theorem v1_real (x a : Fin 16 → Fin 2048 → Fin 256 → ℝ) (W : Fin 256 → Fin 256 → ℝ) (i : S16x2048x2048.Idx) :
    ∃ s : ℝ, Read.val_main_v1 (F := Ideal) (up3 x) (up3 a) (up2 W) i = (s : EReal) := by
  obtain ⟨b, r, j, rfl⟩ : ∃ (b : Fin 16) (r j : Fin 2048), i = ValueIdx.ix3 b r j := ⟨i 0, i 1, i 2, ValueIdx.eq_ix3 i⟩
  exact ⟨_, v1_at x a W b r j⟩

/-- The row maximum of the scores, taken from minus infinity over 2048 real scores, is a real number. -/
private theorem v2_real (x a : Fin 16 → Fin 2048 → Fin 256 → ℝ) (W : Fin 256 → Fin 256 → ℝ) (j : S16x2048.Idx) :
    ∃ M : ℝ, Read.val_main_v2 (F := Ideal) (up3 x) (up3 a) (up2 W) j = (M : EReal) := by
  unfold Read.val_main_v2
  have h : S16x2048x2048.Reduces [2] S16x2048 := by decide
  rw [Host.reduce_eq_fold_single FloatOps.maximumf _ _ reducesTo_S16x2048x2048_S16x2048_d2 h h_S_]
  have hf : (Read.val_main_v1 (F := Ideal) (up3 x) (up3 a) (up2 W) ∘ h.lift j)
      = fun k => (((Read.val_main_v1 (F := Ideal) (up3 x) (up3 a) (up2 W) (h.lift j k)).toReal : ℝ) : EReal) := by
    funext k
    obtain ⟨s, hs⟩ := v1_real x a W (h.lift j k)
    rw [Function.comp_apply, hs, EReal.toReal_coe]
  rw [hf]
  exact fold_max_real (by decide) _ _ (by rw [Read.val_main_cst_apply, Ideal.ofBits_def, ofBits_neg_inf]; exact bot_ne_top)

/-- The shift of the exponents, the larger of minus infinity and the row maximum, is that real number. -/
private theorem v4_real (x a : Fin 16 → Fin 2048 → Fin 256 → ℝ) (W : Fin 256 → Fin 256 → ℝ) (j : S16x2048.Idx) :
    ∃ M : ℝ, Read.val_main_v4 (F := Ideal) (up3 x) (up3 a) (up2 W) j = (M : EReal) := by
  obtain ⟨M, hM⟩ := v2_real x a W j
  refine ⟨M, ?_⟩
  rw [Read.val_main_v4_apply, hM, Read.val_main_v3_apply, Read.val_main_cst_0_apply, Ideal.ofBits_def, ofBits_neg_inf,
    Ideal.maximumf_def]
  exact max_eq_right bot_le

theorem ref_eq (x a : Fin 16 → Fin 2048 → Fin 256 → ℝ) (W : Fin 256 → Fin 256 → ℝ) :
    Cert.ReferenceIdeal.Read.val_main_v13 (F := Ideal) (up3 x) (up3 a) (up2 W) = up3 (attn x a W) := by
  -- M (b, r): the real shift of row r of batch b.
  choose M hM using v4_real x a W
  -- The shifted exponential of a score is the real exponential of the real difference.
  have h8 : ∀ (b : Fin 16) (r j : Fin 2048),
      Read.val_main_v8 (F := Ideal) (up3 x) (up3 a) (up2 W) (ValueIdx.ix3 b r j)
        = ((Real.exp (score x a W b r j - M (ValueIdx.ix2 b r)) : ℝ) : EReal) := by
    intro b r j
    rw [Read.val_main_v8_apply, Read.val_main_v7_apply, Read.val_main_v6_apply, Read.val_main_v5_apply, v1_at]
    have e : Read.idx_main_v5 (Read.idx_main_v6 (ValueIdx.ix3 b r j)) = ValueIdx.ix2 b r :=
      funext fun c => Fin.ext (by match c with | ⟨0, _⟩ => rfl | ⟨1, _⟩ => rfl)
    rw [e, hM, Ideal.subf_def, ← EReal.coe_sub, Ideal.hostUnary_exp_def, Ideal.exp_coe]
  -- The normaliser of row r: zero plus the sum of the shifted exponentials, a real sum.
  have h9 : ∀ (b : Fin 16) (r : Fin 2048),
      Read.val_main_v9 (F := Ideal) (up3 x) (up3 a) (up2 W) (ValueIdx.ix2 b r)
        = ((∑ k : Fin 2048, Real.exp (score x a W b r k - M (ValueIdx.ix2 b r)) : ℝ) : EReal) := by
    intro b r
    rw [Read.val_main_v9_apply, Read.val_main_cst_1_apply, Ideal.ofBits_def, ofBits_zero, zero_add, coe_sum]
    refine Finset.sum_congr rfl fun k _ => ?_
    have e : Read.idx_main_v9 (ValueIdx.ix2 b r) k = ValueIdx.ix3 b r k :=
      funext fun c => Fin.ext (by match c with | ⟨0, _⟩ => rfl | ⟨1, _⟩ => rfl | ⟨2, _⟩ => rfl)
    rw [e, h8]
  -- The normalised weight: a quotient of reals by a positive real.
  have h12 : ∀ (b : Fin 16) (r j : Fin 2048),
      Read.val_main_v12 (F := Ideal) (up3 x) (up3 a) (up2 W) (ValueIdx.ix3 b r j)
        = ((Real.exp (score x a W b r j - M (ValueIdx.ix2 b r))
            / ∑ k : Fin 2048, Real.exp (score x a W b r k - M (ValueIdx.ix2 b r)) : ℝ) : EReal) := by
    intro b r j
    rw [Read.val_main_v12_apply, h8, Read.val_main_v11_apply, Read.val_main_v10_apply]
    have e : Read.idx_main_v10 (Read.idx_main_v11 (ValueIdx.ix3 b r j)) = ValueIdx.ix2 b r :=
      funext fun c => Fin.ext (by match c with | ⟨0, _⟩ => rfl | ⟨1, _⟩ => rfl)
    rw [e, h9, Ideal.hostDivf_def]
    exact div_coe_coe _ _ (sum_exp_pos fun k => score x a W b r k - M (ValueIdx.ix2 b r)).ne'
  funext i
  obtain ⟨b, r, d, rfl⟩ : ∃ b r d, i = ValueIdx.ix3 b r d := ⟨i 0, i 1, i 2, ValueIdx.eq_ix3 i⟩
  -- Over the reals the weighted sum of normalised shifted weights is the shift-free quotient.
  have key : attn x a W b r d
      = ∑ j : Fin 2048, (Real.exp (score x a W b r j - M (ValueIdx.ix2 b r))
          / ∑ k : Fin 2048, Real.exp (score x a W b r k - M (ValueIdx.ix2 b r))) * a b j d :=
    (softmax_ref (fun j => score x a W b r j) (fun j => a b j d) (M (ValueIdx.ix2 b r))).symm
  rw [Read.val_main_v13_apply, up3_ix3, key, coe_sum]
  refine Finset.sum_congr rfl fun k _ => ?_
  have el : Read.lidx_main_v13 (ValueIdx.ix3 b r d) k = ValueIdx.ix3 b r k :=
    funext fun c => Fin.ext (by match c with | ⟨0, _⟩ => rfl | ⟨1, _⟩ => rfl | ⟨2, _⟩ => rfl)
  have er : Read.ridx_main_v13 (ValueIdx.ix3 b r d) k = ValueIdx.ix3 b k d :=
    funext fun c => Fin.ext (by match c with | ⟨0, _⟩ => rfl | ⟨1, _⟩ => rfl | ⟨2, _⟩ => rfl)
  rw [el, er, h12, up3_ix3, EReal.coe_mul]

end Cert.Attn.Ref

end
-- ==== Proof.Finite.lean ====
/-
  Under the precondition every entry of the three argument arrays is a real number.
-/
import proofs.«407937_j88081189306550_3_alg».proof.Proof.Spec
import proofs.«407937_j88081189306550_3_alg».proof.Pre_finite_inputs
import Idealize.ShloMosaic.Lib.ReduceAll
import Idealize.ShloMosaic.PureOps.Ideal.Laws

noncomputable section

namespace Cert.Attn

open Idealize.ShloMosaic

/-- The word 0x7F800000 read as an extended real is +∞: exponent field all ones, fraction zero, sign clear. -/
private theorem inf_word : (FloatOps.ofBits (F := Ideal) .f32 0x7F800000#32 : Ideal .f32) = (⊤ : EReal) := by
  show Ideal.ofBits .f32 0x7F800000#32 = _
  simp [Ideal.ofBits, Ideal.ieee]

/-- If |x| = max x (−x) is strictly below +∞ then x is neither +∞ nor −∞. -/
private theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : x ≠ ⊤ ∧ x ≠ ⊥ := by
  rw [inf_word] at h
  induction x using EReal.rec with
  | bot => exact absurd h (by simp [Ideal.cmpf_def, Ideal.absf_def, Ideal.cmp])
  | top => exact absurd h (by simp [Ideal.cmpf_def, Ideal.absf_def, Ideal.cmp])
  | coe r => exact ⟨EReal.coe_ne_top r, EReal.coe_ne_bot r⟩

private instance : Subsingleton Cert.Pre_finite_inputs.S_.Idx := ⟨fun a b => funext fun d => d.elim0⟩

/-- One array: if the conjunction over all entries of "|entry| < +∞" is true, every entry is real. -/
private theorem entries_real {s : Shape} (hb : Cert.Pre_finite_inputs.S_.BroadcastsInDim s (![] : Fin 0 → Fin s.rank))
    {axes : List (Fin s.rank)} (hr : s.ReducesTo axes Cert.Pre_finite_inputs.S_) (hu : 0 < Cert.Pre_finite_inputs.S_.numel)
    (X : FVec Ideal s .f32) (j : Cert.Pre_finite_inputs.S_.Idx)
    (h : Host.reduce IntOp.andi
      (cmpf .olt (Host.absf X) (broadcastInDim s ![] hb (constant (F := Ideal) Cert.Pre_finite_inputs.S_ .f32 0x7F800000#32)))
      (constantI Cert.Pre_finite_inputs.S_ 1 1#1) hr hu j = 1#1) (i : s.Idx) : X i ≠ ⊤ ∧ X i ≠ ⊥ :=
  real_of_abs_lt (X i) (Host.reduce_andi_all _ _ hr hu j h i)

theorem real_of_pre [Cert.Pre_finite_inputs.Facts] (X A : (⟨3, ![16, 2048, 256]⟩ : Shape).Idx → EReal)
    (Wt : (⟨2, ![256, 256]⟩ : Shape).Idx → EReal)
    (h : Cert.Pre_finite_inputs.fn (F := Ideal) X A Wt = fun _ => 1#1) :
    up3 (dn3 X) = X ∧ up3 (dn3 A) = A ∧ up2 (dn2 Wt) = Wt := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  exact ⟨up3_dn3 X (entries_real _ _ _ X _ h1), up3_dn3 A (entries_real _ _ _ A _ h2), up2_dn2 Wt (entries_real _ _ _ Wt _ h3)⟩

end Cert.Attn

end
-- ==== Proof.lean ====
/-
  Bilinear cross-attention, computed tile by tile with a running softmax, against the one-pass softmax.

  Inputs x, a of shape [16, 2048, 256] and W of shape [256, 256], all entries real (the precondition). Both programs compute
    out[b, r, :] = Σ_j softmax_j( (x[b, r, :] · W) · a[b, j, :] ) · a[b, j, :].
  The reference forms the scores, subtracts each row's maximum, exponentiates, normalises each weight by the row's sum and
  multiplies by a. The kernel first writes x · W and a as a leading part plus a remainder "value − leading part"; read
  over the extended reals the leading part is the value itself and the remainder is value − value, which is 0 because
  the value is real, so every product against a remainder vanishes. It then walks the 2048 key rows in two tiles of 1024,
  carrying a running maximum m (started at a large negative REAL number, not minus infinity), a denominator l and a
  weighted sum acc: at each tile m' = max(m, row maxima), l' = exp(m − m')·l + Σ exp(s − m'), acc' = exp(m − m')·acc +
  Σ exp(s − m')·a, and after the second tile it stores acc / l.
  Over the reals a softmax-weighted sum does not depend on the shift of its exponents (exp(s − c) = exp(s)·exp(−c), and
  exp(−c) ≠ 0 cancels between numerator and denominator), so both programs equal the shift-free quotient
  (Σ_j exp(s_j)·a_j) / (Σ_j exp(s_j)), whatever the two maxima are; all that is used of the maxima is that they are
  real, which holds because each is a maximum over at least one real score (and, in the kernel, a real start).
  Finiteness of the inputs is used twice: for value − value = 0, and to read every sum and product as a real one.
-/
import proofs.«407937_j88081189306550_3_alg».proof.Defs
import proofs.«407937_j88081189306550_3_alg».proof.Proof.Gen.Kernel
import proofs.«407937_j88081189306550_3_alg».proof.Proof.Gen.Kernel.Skeleton
import proofs.«407937_j88081189306550_3_alg».proof.Proof.Gen.Kernel.Launch
import proofs.«407937_j88081189306550_3_alg».proof.Proof.Gen.Kernel.Points
import proofs.«407937_j88081189306550_3_alg».proof.Proof.Gen.Kernel.Frame
import proofs.«407937_j88081189306550_3_alg».proof.Proof.Gen.KernelIdeal
import proofs.«407937_j88081189306550_3_alg».proof.Proof.Gen.KernelIdeal.Skeleton
import proofs.«407937_j88081189306550_3_alg».proof.Proof.Gen.KernelIdeal.Launch
import proofs.«407937_j88081189306550_3_alg».proof.Proof.Gen.KernelIdeal.Points
import proofs.«407937_j88081189306550_3_alg».proof.Proof.Gen.KernelIdeal.Frame
import proofs.«407937_j88081189306550_3_alg».proof.Proof.Gen.ReferenceIdeal
import proofs.«407937_j88081189306550_3_alg».proof.Proof.Gen.Pre_finite_inputs
import proofs.«407937_j88081189306550_3_alg».proof.Proof.Gen.KernelIdeal.Value
import proofs.«407937_j88081189306550_3_alg».proof.Proof.Gen.ReferenceIdeal.Run
import proofs.«407937_j88081189306550_3_alg».proof.Proof.Gen.ReferenceIdeal.Read
import proofs.«407937_j88081189306550_3_alg».proof.Proof.KernelValue
import proofs.«407937_j88081189306550_3_alg».proof.Proof.RefAt
import proofs.«407937_j88081189306550_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the attended values of the arguments' real parts. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hr := @Cert.Attn.real_of_pre Cert.Pre_finite_inputs.Gen.facts _ _ _ (hpre 0)
  have hx : ∀ c : Dev Cert.KernelIdeal.nD, m ((c : Thread Cert.KernelIdeal.nD Cert.KernelIdeal.τ).loc Cert.KernelIdeal.main_arg0)
      = Cert.Attn.up3 (Cert.Attn.dn3 (m (((0 : Dev Cert.KernelIdeal.nD) : Thread Cert.KernelIdeal.nD Cert.KernelIdeal.τ).loc Cert.KernelIdeal.main_arg0))) :=
    fun c => by obtain rfl : c = 0 := Subsingleton.elim _ _; exact hr.1.symm
  have ha : ∀ c : Dev Cert.KernelIdeal.nD, m ((c : Thread Cert.KernelIdeal.nD Cert.KernelIdeal.τ).loc Cert.KernelIdeal.main_arg1)
      = Cert.Attn.up3 (Cert.Attn.dn3 (m (((0 : Dev Cert.KernelIdeal.nD) : Thread Cert.KernelIdeal.nD Cert.KernelIdeal.τ).loc Cert.KernelIdeal.main_arg1))) :=
    fun c => by obtain rfl : c = 0 := Subsingleton.elim _ _; exact hr.2.1.symm
  have hW : ∀ c : Dev Cert.KernelIdeal.nD, m ((c : Thread Cert.KernelIdeal.nD Cert.KernelIdeal.τ).loc Cert.KernelIdeal.main_arg2)
      = Cert.Attn.up2 (Cert.Attn.dn2 (m (((0 : Dev Cert.KernelIdeal.nD) : Thread Cert.KernelIdeal.nD Cert.KernelIdeal.τ).loc Cert.KernelIdeal.main_arg2))) :=
    fun c => by obtain rfl : c = 0 := Subsingleton.elim _ _; exact hr.2.2.symm
  refine ⟨fun c => Cert.Attn.KValue.result _ _ _ c, Cert.Attn.KValue.run m ρ _ _ _ hx ha hW, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2.1, (hagree c).2.2, hx c, ha c, hW c,
    Cert.Attn.Ref.ref_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
